-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x262144 : Shape := ⟨2, ![32, 262144]⟩
abbrev S32x262144x4 : Shape := ⟨3, ![32, 262144, 4]⟩
abbrev S_ : Shape := ⟨0, ![]⟩

class Facts : Prop where
  bcast_S_S32x262144 : S_.BroadcastsInDim S32x262144 (![] : Fin 0 → Fin S32x262144.rank)
  reducesTo_S32x262144_S_d0_1 : S32x262144.ReducesTo [0, 1] S_
  h_S_ : 0 < S_.numel
  bcast_S_S32x262144x4 : S_.BroadcastsInDim S32x262144x4 (![] : Fin 0 → Fin S32x262144x4.rank)
  reducesTo_S32x262144x4_S_d0_1_2 : S32x262144x4.ReducesTo [0, 1, 2] S_

variable [Facts]

def fn {F : FTy → Type} [FloatOps F] (main_arg0 : FVec F S32x262144 .f32) (main_arg1 : FVec F S32x262144x4 .f32) : IVec S_ 1 :=
  let main_v0 : FVec F S32x262144 .f32 := Host.absf main_arg0
  let main_cst : FVec F S_ .f32 := constant S_ .f32 0x7F800000#32
  let main_v1 : FVec F S32x262144 .f32 := broadcastInDim S32x262144 ![] bcast_S_S32x262144 main_cst
  let main_v2 : IVec S32x262144 1 := cmpf .olt main_v0 main_v1
  let main_c : IVec S_ 1 := constantI S_ 1 1#1
  let main_v3 : IVec S_ 1 := (fun x v => Host.reduce IntOp.andi x v reducesTo_S32x262144_S_d0_1 h_S_) main_v2 main_c
  let main_v4 : FVec F S32x262144x4 .f32 := Host.absf main_arg1
  let main_cst_0 : FVec F S_ .f32 := constant S_ .f32 0x7F800000#32
  let main_v5 : FVec F S32x262144x4 .f32 := broadcastInDim S32x262144x4 ![] bcast_S_S32x262144x4 main_cst_0
  let main_v6 : IVec S32x262144x4 1 := cmpf .olt main_v4 main_v5
  let main_c_1 : IVec S_ 1 := constantI S_ 1 1#1
  let main_v7 : IVec S_ 1 := (fun x v => Host.reduce IntOp.andi x v reducesTo_S32x262144x4_S_d0_1_2 h_S_) main_v6 main_c_1
  let main_v8 : IVec S_ 1 := andi main_v3 main_v7
  main_v8
-- ==== Kernel.lean ====
abbrev S32x262144 : Shape := ⟨2, ![32, 262144]⟩
abbrev S32x262144x4 : Shape := ⟨3, ![32, 262144, 4]⟩
abbrev S32x2x131072 : Shape := ⟨3, ![32, 2, 131072]⟩
abbrev S32x131072x2 : Shape := ⟨3, ![32, 131072, 2]⟩
abbrev S32x262144x1 : Shape := ⟨3, ![32, 262144, 1]⟩
abbrev S_ : Shape := ⟨0, ![]⟩
abbrev S1 : Shape := ⟨1, ![1]⟩
abbrev S1x1x1 : Shape := ⟨3, ![1, 1, 1]⟩
abbrev S32x262144x2 : Shape := ⟨3, ![32, 262144, 2]⟩
abbrev S32x1x1 : Shape := ⟨3, ![32, 1, 1]⟩
abbrev S1x131072x2 : Shape := ⟨3, ![1, 131072, 2]⟩
abbrev S1x131072x1 : Shape := ⟨3, ![1, 131072, 1]⟩
abbrev S1x131072 : Shape := ⟨2, ![1, 131072]⟩
abbrev S1x1 : Shape := ⟨2, ![1, 1]⟩

abbrev nBuf : Space → Nat
  | .hbm => 57
  | .vmem => 10
  | .smem => 0
  | _ => 0

abbrev bufTy : (tb : Table) → Fin (tcTables nBuf tb) → BufTy
  | .hbm, ⟨0, _⟩ => ⟨S32x262144, .f32⟩
  | .hbm, ⟨1, _⟩ => ⟨S32x262144x4, .f32⟩
  | .hbm, ⟨2, _⟩ => ⟨S32x2x131072, .f32⟩
  | .hbm, ⟨3, _⟩ => ⟨S32x131072x2, .f32⟩
  | .hbm, ⟨4, _⟩ => ⟨S32x262144x1, .f32⟩
  | .hbm, ⟨5, _⟩ => ⟨S32x262144, .f32⟩
  | .hbm, ⟨6, _⟩ => ⟨S32x262144, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S32x262144, .i32⟩
  | .hbm, ⟨11, _⟩ => ⟨S32x262144, .i32⟩
  | .hbm, ⟨12, _⟩ => ⟨S_, .i32⟩
  | .hbm, ⟨13, _⟩ => ⟨S32x262144, .i32⟩
  | .hbm, ⟨14, _⟩ => ⟨S32x262144, .i32⟩
  | .hbm, ⟨15, _⟩ => ⟨S32x262144x1, .i32⟩
  | .hbm, ⟨16, _⟩ => ⟨S_, .i32⟩
  | .hbm, ⟨17, _⟩ => ⟨S32x262144x1, .i32⟩
  | .hbm, ⟨18, _⟩ => ⟨S32x262144x1, .i1⟩
  | .hbm, ⟨19, _⟩ => ⟨S_, .i32⟩
  | .hbm, ⟨20, _⟩ => ⟨S32x262144x1, .i32⟩
  | .hbm, ⟨21, _⟩ => ⟨S32x262144x1, .i32⟩
  | .hbm, ⟨22, _⟩ => ⟨S32x262144x1, .i32⟩
  | .hbm, ⟨23, _⟩ => ⟨S1, .i32⟩
  | .hbm, ⟨24, _⟩ => ⟨S_, .i32⟩
  | .hbm, ⟨25, _⟩ => ⟨S32x262144x1, .i32⟩
  | .hbm, ⟨26, _⟩ => ⟨S32x262144x1, .i1⟩
  | .hbm, ⟨27, _⟩ => ⟨S1x1x1, .i32⟩
  | .hbm, ⟨28, _⟩ => ⟨S32x262144x1, .i32⟩
  | .hbm, ⟨29, _⟩ => ⟨S32x262144x1, .i1⟩
  | .hbm, ⟨30, _⟩ => ⟨S32x262144x1, .i1⟩
  | .hbm, ⟨31, _⟩ => ⟨S_, .i1⟩
  | .hbm, ⟨32, _⟩ => ⟨S32x262144, .i1⟩
  | .hbm, ⟨33, _⟩ => ⟨S32x262144x2, .f32⟩
  | .hbm, ⟨34, _⟩ => ⟨S32x262144x2, .i1⟩
  | .hbm, ⟨35, _⟩ => ⟨S_, .f32⟩
  | .hbm, ⟨36, _⟩ => ⟨S32x262144x2, .f32⟩
  | .hbm, ⟨37, _⟩ => ⟨S32x262144x2, .f32⟩
  | .hbm, ⟨38, _⟩ => ⟨S32x262144x2, .f32⟩
  | .hbm, ⟨39, _⟩ => ⟨S32x262144x1, .f32⟩
  | .hbm, ⟨40, _⟩ => ⟨S32x262144, .f32⟩
  | .hbm, ⟨41, _⟩ => ⟨S_, .f32⟩
  | .hbm, ⟨42, _⟩ => ⟨S32x262144, .f32⟩
  | .hbm, ⟨43, _⟩ => ⟨S32x262144, .i1⟩
  | .hbm, ⟨44, _⟩ => ⟨S32x262144, .f32⟩
  | .hbm, ⟨45, _⟩ => ⟨S32x262144x1, .f32⟩
  | .hbm, ⟨46, _⟩ => ⟨S32x1x1, .f32⟩
  | .hbm, ⟨47, _⟩ => ⟨S32x1x1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S1x131072x2, .f32⟩
  | .local _ .vmem, ⟨1, _⟩ => ⟨S1x131072x2, .f32⟩
  | .local _ .vmem, ⟨2, _⟩ => ⟨S1x131072x2, .f32⟩
  | .local _ .vmem, ⟨3, _⟩ => ⟨S1x131072x2, .f32⟩
  | .local _ .vmem, ⟨4, _⟩ => ⟨S1x131072x1, .f32⟩
  | .local _ .vmem, ⟨5, _⟩ => ⟨S1x131072x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | _, _ => ⟨S32x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_c_1 : Ref sig .tc := ⟨.hbm, 23, rfl⟩
abbrev main_call1_c_2 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_c_3 : Ref sig .tc := ⟨.hbm, 31, rfl⟩
abbrev main_call1_v11 : Ref sig .tc := ⟨.hbm, 32, rfl⟩
abbrev main_call1_v12 : Ref sig .tc := ⟨.hbm, 33, rfl⟩
abbrev main_call1_v13 : Ref sig .tc := ⟨.hbm, 34, rfl⟩
abbrev main_call1_cst : Ref sig .tc := ⟨.hbm, 35, rfl⟩
abbrev main_call1_v14 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15_0 : Ref sig .tc := ⟨.hbm, 46, rfl⟩
abbrev main_v15_1 : Ref sig .tc := ⟨.hbm, 47, rfl⟩
abbrev main_cst_1 : Ref sig .tc := ⟨.hbm, 48, rfl⟩
abbrev main_v16 : Ref sig .tc := ⟨.hbm, 49, rfl⟩
abbrev main_cst_2 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_cst_4 : Ref sig .tc := ⟨.hbm, 55, rfl⟩
abbrev main_v20 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x131072x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x131072x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x131072x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32x262144_S32x2x131072 : S32x262144.ShapeCasts S32x2x131072
  transposes_S32x2x131072_S32x131072x2_0_2_1 : S32x2x131072.Transposes [0, 2, 1] S32x131072x2
  slices_S32x262144x4_S32x262144x1_0_0_2 : S32x262144x4.Slices ![0, 0, 2] S32x262144x1
  shapeCasts_S32x262144x1_S32x262144 : S32x262144x1.ShapeCasts S32x262144
  bcast_S_S32x262144 : S_.BroadcastsInDim S32x262144 (![] : Fin 0 → Fin S32x262144.rank)
  bcast_S32x262144_S32x262144x1_0_1 : S32x262144.BroadcastsInDim S32x262144x1 (![0, 1] : Fin 2 → Fin S32x262144x1.rank)
  bcast_S_S32x262144x1 : S_.BroadcastsInDim S32x262144x1 (![] : Fin 0 → Fin S32x262144x1.rank)
  bcast_S1_S1x1x1_2 : S1.BroadcastsInDim S1x1x1 (![2] : Fin 1 → Fin S1x1x1.rank)
  bcast_S1x1x1_S32x262144x1_0_1_2 : S1x1x1.BroadcastsInDim S32x262144x1 (![0, 1, 2] : Fin 3 → Fin S32x262144x1.rank)
  reducesTo_S32x262144x1_S32x262144_d2 : S32x262144x1.ReducesTo [2] S32x262144
  h_S_ : 0 < S_.numel
  bcast_S32x262144_S32x262144x2_0_1 : S32x262144.BroadcastsInDim S32x262144x2 (![0, 1] : Fin 2 → Fin S32x262144x2.rank)
  bcast_S_S32x262144x2 : S_.BroadcastsInDim S32x262144x2 (![] : Fin 0 → Fin S32x262144x2.rank)
  slices_S32x262144x4_S32x262144x2_0_0_0 : S32x262144x4.Slices ![0, 0, 0] S32x262144x2
  slices_S32x262144x4_S32x262144x1_0_0_3 : S32x262144x4.Slices ![0, 0, 3] S32x262144x1
  inb_S1x1x1_S1x1x1_0_0_0 : ∀ a, (![0, 0, 0] : Fin 3 → Nat) a + S1x1x1.size a ≤ S1x1x1.size a
  h_S1x1x1 : 0 < S1x1x1.numel
  inb_S1x131072x2_S1x131072x2_0_0_0 : ∀ a, (![0, 0, 0] : Fin 3 → Nat) a + S1x131072x2.size a ≤ S1x131072x2.size a
  h_S1x131072x2 : 0 < S1x131072x2.numel
  shapeCasts_S1x131072x2_S1x131072x2 : S1x131072x2.ShapeCasts S1x131072x2
  inb_S1x131072x1_S1x131072x1_0_0_0 : ∀ a, (![0, 0, 0] : Fin 3 → Nat) a + S1x131072x1.size a ≤ S1x131072x1.size a
  h_S1x131072x1 : 0 < S1x131072x1.numel
  shapeCasts_S1x131072x1_S1x131072x1 : S1x131072x1.ShapeCasts S1x131072x1
  broadcasts_S1x131072x1_S1x131072x2 : S1x131072x1.Broadcasts S1x131072x2
  reduces_S1x131072x2_S1x131072 : S1x131072x2.Reduces [2] S1x131072
  shapeCasts_S1x131072_S1x131072x1 : S1x131072.ShapeCasts S1x131072x1
  reduces_S1x131072x1_S1x1 : S1x131072x1.Reduces [1] S1x1
  shapeCasts_S1x1_S1x1x1 : S1x1.ShapeCasts S1x1x1
  shapeCasts_S1x1x1_S1x1x1 : S1x1x1.ShapeCasts S1x1x1
  reducesTo_S32x1x1_S_d0_1_2 : S32x1x1.ReducesTo [0, 1, 2] S_
  gather_S32x131072x2_S32x262144x1_S32x262144x2_2_1_0_0_1_2_112_wf : GatherDims.WF S32x131072x2 S32x262144x1 S32x262144x2 [2] [1] [0] [1] [0] 2 ![1, 1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x131072x2.size a ≤ S32x262144x2.size a
  hwx0_0 : ∀ i : grid0.Coords, EltTy.bits .f32 = 32 ∨ (Rect.block (s := S32x262144x2) S1x131072x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x131072x2.size a ≤ S32x262144x2.size a
  hwx0_1 : ∀ i : grid0.Coords, EltTy.bits .f32 = 32 ∨ (Rect.block (s := S32x262144x2) S1x131072x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x131072x1.size a ≤ S32x262144x1.size a
  hwx0_2 : ∀ i : grid0.Coords, EltTy.bits .f32 = 32 ∨ (Rect.block (s := S32x262144x1) S1x131072x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S32x1x1.size a
  hwx0_3 : ∀ i : grid0.Coords, EltTy.bits .f32 = 32 ∨ (Rect.block (s := S32x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S32x1x1.size a
  hwx0_4 : ∀ i : grid0.Coords, EltTy.bits .f32 = 32 ∨ (Rect.block (s := S32x1x1) S1x1x1.size (cc0_transform_4 i) (hinb0_4 i)).WholeWords (EltTy.packing .f32)

variable [Facts₀]

def gather_S32x131072x2_S32x262144x1_S32x262144x2_2_1_0_0_1_2_112 : GatherDims S32x131072x2 S32x262144x1 S32x262144x2 where
  offsetDims := [2]
  collapsedSliceDims := [1]
  operandBatchingDims := [0]
  startIndicesBatchingDims := [0]
  startIndexMap := [1]
  indexVectorDim := 2
  sliceSizes := ![1, 1, 2]
  wf := gather_S32x131072x2_S32x262144x1_S32x262144x2_2_1_0_0_1_2_112_wf

abbrev win0_0 : Pipeline.Window sig grid0 :=
  Pipeline.Window.ofSpec (Memref.whole main_v7) S1x131072x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x131072x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x131072x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x262144 : Shape := ⟨2, ![32, 262144]⟩
abbrev S32x262144x4 : Shape := ⟨3, ![32, 262144, 4]⟩
abbrev S32x2x131072 : Shape := ⟨3, ![32, 2, 131072]⟩
abbrev S32x262144x2 : Shape := ⟨3, ![32, 262144, 2]⟩
abbrev S32x262144x1 : Shape := ⟨3, ![32, 262144, 1]⟩
abbrev S_ : Shape := ⟨0, ![]⟩
abbrev S32x131072x2 : Shape := ⟨3, ![32, 131072, 2]⟩
abbrev S1 : Shape := ⟨1, ![1]⟩
abbrev S1x1x1 : Shape := ⟨3, ![1, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S32x262144, .f32⟩
  | .hbm, ⟨1, _⟩ => ⟨S32x262144x4, .f32⟩
  | .hbm, ⟨2, _⟩ => ⟨S32x2x131072, .f32⟩
  | .hbm, ⟨3, _⟩ => ⟨S32x262144x2, .f32⟩
  | .hbm, ⟨4, _⟩ => ⟨S32x262144x1, .f32⟩
  | .hbm, ⟨5, _⟩ => ⟨S32x262144, .f32⟩
  | .hbm, ⟨6, _⟩ => ⟨S32x262144, .i32⟩
  | .hbm, ⟨7, _⟩ => ⟨S32x262144x1, .f32⟩
  | .hbm, ⟨8, _⟩ => ⟨S32x262144, .f32⟩
  | .hbm, ⟨9, _⟩ => ⟨S_, .f32⟩
  | .hbm, ⟨10, _⟩ => ⟨S32x262144, .f32⟩
  | .hbm, ⟨11, _⟩ => ⟨S32x262144, .i1⟩
  | .hbm, ⟨12, _⟩ => ⟨S32x131072x2, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S32x262144, .i32⟩
  | .hbm, ⟨17, _⟩ => ⟨S32x262144, .i32⟩
  | .hbm, ⟨18, _⟩ => ⟨S_, .i32⟩
  | .hbm, ⟨19, _⟩ => ⟨S32x262144, .i32⟩
  | .hbm, ⟨20, _⟩ => ⟨S32x262144, .i32⟩
  | .hbm, ⟨21, _⟩ => ⟨S32x262144x1, .i32⟩
  | .hbm, ⟨22, _⟩ => ⟨S_, .i32⟩
  | .hbm, ⟨23, _⟩ => ⟨S32x262144x1, .i32⟩
  | .hbm, ⟨24, _⟩ => ⟨S32x262144x1, .i1⟩
  | .hbm, ⟨25, _⟩ => ⟨S_, .i32⟩
  | .hbm, ⟨26, _⟩ => ⟨S32x262144x1, .i32⟩
  | .hbm, ⟨27, _⟩ => ⟨S32x262144x1, .i32⟩
  | .hbm, ⟨28, _⟩ => ⟨S32x262144x1, .i32⟩
  | .hbm, ⟨29, _⟩ => ⟨S1, .i32⟩
  | .hbm, ⟨30, _⟩ => ⟨S_, .i32⟩
  | .hbm, ⟨31, _⟩ => ⟨S32x262144x1, .i32⟩
  | .hbm, ⟨32, _⟩ => ⟨S32x262144x1, .i1⟩
  | .hbm, ⟨33, _⟩ => ⟨S1x1x1, .i32⟩
  | .hbm, ⟨34, _⟩ => ⟨S32x262144x1, .i32⟩
  | .hbm, ⟨35, _⟩ => ⟨S32x262144x1, .i1⟩
  | .hbm, ⟨36, _⟩ => ⟨S32x262144x1, .i1⟩
  | .hbm, ⟨37, _⟩ => ⟨S_, .i1⟩
  | .hbm, ⟨38, _⟩ => ⟨S32x262144, .i1⟩
  | .hbm, ⟨39, _⟩ => ⟨S32x262144x2, .f32⟩
  | .hbm, ⟨40, _⟩ => ⟨S32x262144x2, .i1⟩
  | .hbm, ⟨41, _⟩ => ⟨S_, .f32⟩
  | .hbm, ⟨42, _⟩ => ⟨S32x262144x2, .f32⟩
  | .hbm, ⟨43, _⟩ => ⟨S32x262144x2, .f32⟩
  | .hbm, ⟨44, _⟩ => ⟨S32x262144x2, .f32⟩
  | .hbm, ⟨45, _⟩ => ⟨S32x262144x2, .f32⟩
  | .hbm, ⟨46, _⟩ => ⟨S_, .f32⟩
  | .hbm, ⟨47, _⟩ => ⟨S32x262144x2, .f32⟩
  | .hbm, ⟨48, _⟩ => ⟨S32x262144x2, .i1⟩
  | .hbm, ⟨49, _⟩ => ⟨S_, .f32⟩
  | .hbm, ⟨50, _⟩ => ⟨S32x262144x2, .f32⟩
  | .hbm, ⟨51, _⟩ => ⟨S32x262144x2, .f32⟩
  | .hbm, ⟨52, _⟩ => ⟨S32x262144x2, .f32⟩
  | .hbm, ⟨53, _⟩ => ⟨S_, .f32⟩
  | .hbm, ⟨54, _⟩ => ⟨S32x262144x2, .f32⟩
  | .hbm, ⟨55, _⟩ => ⟨S32x262144x2, .f32⟩
  | .hbm, ⟨56, _⟩ => ⟨S32x262144x2, .f32⟩
  | .hbm, ⟨57, _⟩ => ⟨S32x262144, .f32⟩
  | .hbm, ⟨58, _⟩ => ⟨S32x262144x1, .f32⟩
  | .hbm, ⟨59, _⟩ => ⟨S32x262144x2, .f32⟩
  | .hbm, ⟨60, _⟩ => ⟨S32x262144x2, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S32x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_v11 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_c_2 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_c_3 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_1 : Ref sig .tc := ⟨.hbm, 46, rfl⟩
abbrev main_v15 : Ref sig .tc := ⟨.hbm, 47, rfl⟩
abbrev main_v16 : Ref sig .tc := ⟨.hbm, 48, rfl⟩
abbrev main_cst_2 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_3 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_4 : Ref sig .tc := ⟨.hbm, 61, rfl⟩
abbrev main_v27 : Ref sig .tc := ⟨.hbm, 62, rfl⟩
abbrev main_cst_5 : Ref sig .tc := ⟨.hbm, 63, rfl⟩
abbrev main_v28 : Ref sig .tc := ⟨.hbm, 64, rfl⟩
abbrev main_cst_6 : Ref sig .tc := ⟨.hbm, 65, rfl⟩
abbrev main_v29 : Ref sig .tc := ⟨.hbm, 66, rfl⟩
abbrev main_v30 : Ref sig .tc := ⟨.hbm, 67, rfl⟩
abbrev main_cst_7 : Ref sig .tc := ⟨.hbm, 68, rfl⟩
abbrev main_v31 : Ref sig .tc := ⟨.hbm, 69, rfl⟩

abbrev nD : Nat := 1
abbrev τ : Topo := Topo.v7x

variable {F : FTy → Type} [FloatOps F]

class Facts₀ : Prop where
  shapeCasts_S32x262144_S32x2x131072 : S32x262144.ShapeCasts S32x2x131072
  slices_S32x262144x4_S32x262144x2_0_0_0 : S32x262144x4.Slices ![0, 0, 0] S32x262144x2
  slices_S32x262144x4_S32x262144x1_0_0_2 : S32x262144x4.Slices ![0, 0, 2] S32x262144x1
  shapeCasts_S32x262144x1_S32x262144 : S32x262144x1.ShapeCasts S32x262144
  slices_S32x262144x4_S32x262144x1_0_0_3 : S32x262144x4.Slices ![0, 0, 3] S32x262144x1
  bcast_S_S32x262144 : S_.BroadcastsInDim S32x262144 (![] : Fin 0 → Fin S32x262144.rank)
  transposes_S32x2x131072_S32x131072x2_0_2_1 : S32x2x131072.Transposes [0, 2, 1] S32x131072x2
  bcast_S32x262144_S32x262144x1_0_1 : S32x262144.BroadcastsInDim S32x262144x1 (![0, 1] : Fin 2 → Fin S32x262144x1.rank)
  bcast_S_S32x262144x1 : S_.BroadcastsInDim S32x262144x1 (![] : Fin 0 → Fin S32x262144x1.rank)
  bcast_S1_S1x1x1_2 : S1.BroadcastsInDim S1x1x1 (![2] : Fin 1 → Fin S1x1x1.rank)
  bcast_S1x1x1_S32x262144x1_0_1_2 : S1x1x1.BroadcastsInDim S32x262144x1 (![0, 1, 2] : Fin 3 → Fin S32x262144x1.rank)
  reducesTo_S32x262144x1_S32x262144_d2 : S32x262144x1.ReducesTo [2] S32x262144
  h_S_ : 0 < S_.numel
  bcast_S32x262144_S32x262144x2_0_1 : S32x262144.BroadcastsInDim S32x262144x2 (![0, 1] : Fin 2 → Fin S32x262144x2.rank)
  bcast_S_S32x262144x2 : S_.BroadcastsInDim S32x262144x2 (![] : Fin 0 → Fin S32x262144x2.rank)
  bcast_S32x262144x1_S32x262144x2_0_1_2 : S32x262144x1.BroadcastsInDim S32x262144x2 (![0, 1, 2] : Fin 3 → Fin S32x262144x2.rank)
  reducesTo_S32x262144x2_S_d0_1_2 : S32x262144x2.ReducesTo [0, 1, 2] S_
  reducesTo_S32x262144_S_d0_1 : S32x262144.ReducesTo [0, 1] S_
  gather_S32x131072x2_S32x262144x1_S32x262144x2_2_1_0_0_1_2_112_wf : GatherDims.WF S32x131072x2 S32x262144x1 S32x262144x2 [2] [1] [0] [1] [0] 2 ![1, 1, 2]

variable [Facts₀]

def gather_S32x131072x2_S32x262144x1_S32x262144x2_2_1_0_0_1_2_112 : GatherDims S32x131072x2 S32x262144x1 S32x262144x2 where
  offsetDims := [2]
  collapsedSliceDims := [1]
  operandBatchingDims := [0]
  startIndicesBatchingDims := [0]
  startIndexMap := [1]
  indexVectorDim := 2
  sliceSizes := ![1, 1, 2]
  wf := gather_S32x131072x2_S32x262144x1_S32x262144x2_2_1_0_0_1_2_112_wf

class Facts : Prop extends Facts₀ where

variable [Facts]
-- ==== Proof.RefStages.lean ====
/-
  The reference program run stretch by stretch.

  The reference is a straight line of 68 host operations: it reshapes and transposes the regression table, slices the
  target into its pair, index and state columns, converts and clips the index, gathers a pair per anchor, and then
  takes the masked smooth-L1 sum and divides by the clamped mask count. Composed into one term the whole line is
  unwieldy, because three of its parts are calls whose bodies are stated over typed references; cut at the calls it
  is five short stretches. After each stretch the few buffers that later stretches read hold the values the stage
  functions `val_…` name (each a function of the two arguments), and every other buffer is irrelevant. The last
  stretch's result buffer therefore holds `val_main_v31` of the arguments, and no argument buffer is written.
-/
import proofs.«150206_j46858093200031_1_alg».proof.Proof.RefRead
import Idealize.ShloMosaic.Lib.StableHlo.Run
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The table and the target's columns: reshape, the three slices, the index conversion, the mask compare, the
    transpose and the two clip bounds. -/
abbrev opsTable : List (HloOp τ sig (Elt F)) :=
  [ reshape main_arg0 main_v0 rfl shapeCasts_S32x262144_S32x2x131072,
    unary main_arg1 main_v1 ((extractStridedSlice S32x262144x2 ![0, 0, 0] · slices_S32x262144x4_S32x262144x2_0_0_0) : (⟨S32x262144x4, .f32⟩ : BufTy).Contents (Elt F) → (⟨S32x262144x2, .f32⟩ : BufTy).Contents (Elt F)),
    unary main_arg1 main_v2 ((extractStridedSlice S32x262144x1 ![0, 0, 2] · slices_S32x262144x4_S32x262144x1_0_0_2) : (⟨S32x262144x4, .f32⟩ : BufTy).Contents (Elt F) → (⟨S32x262144x1, .f32⟩ : BufTy).Contents (Elt F)),
    reshape main_v2 main_v3 rfl shapeCasts_S32x262144x1_S32x262144,
    unary main_v3 main_v4 (fptosi 32 : (⟨S32x262144, .f32⟩ : BufTy).Contents (Elt F) → (⟨S32x262144, .i32⟩ : BufTy).Contents (Elt F)),
    unary main_arg1 main_v5 ((extractStridedSlice S32x262144x1 ![0, 0, 3] · slices_S32x262144x4_S32x262144x1_0_0_3) : (⟨S32x262144x4, .f32⟩ : BufTy).Contents (Elt F) → (⟨S32x262144x1, .f32⟩ : BufTy).Contents (Elt F)),
    reshape main_v5 main_v6 rfl shapeCasts_S32x262144x1_S32x262144,
    nullary main_cst (constant S_ .f32 0x3F800000#32),
    unary main_cst main_v7 (broadcastInDim S32x262144 ![] bcast_S_S32x262144 : (⟨S_, .f32⟩ : BufTy).Contents (Elt F) → (⟨S32x262144, .f32⟩ : BufTy).Contents (Elt F)),
    binary main_v6 main_v7 main_v8 (cmpf .oeq : (⟨S32x262144, .f32⟩ : BufTy).Contents (Elt F) → (⟨S32x262144, .f32⟩ : BufTy).Contents (Elt F) → (⟨S32x262144, .i1⟩ : BufTy).Contents (Elt F)),
    unary main_v0 main_v9 ((transpose S32x131072x2 [0, 2, 1] · transposes_S32x2x131072_S32x131072x2_0_2_1) : (⟨S32x2x131072, .f32⟩ : BufTy).Contents (Elt F) → (⟨S32x131072x2, .f32⟩ : BufTy).Contents (Elt F)),
    nullary main_c (constantI S_ 32 0#32),
    nullary main_c_0 (constantI S_ 32 131071#32) ]

/-- The clip of the index into the table's range. -/
abbrev opsClip : List (HloOp τ sig (Elt F)) :=
  [ TRef.unary (TRef.of (T := ⟨S_, .i32⟩) main_c) (TRef.of (T := ⟨S_, .i32⟩) main_call0_v0) id,
    TRef.unary (TRef.of (T := ⟨S_, .i32⟩) main_call0_v0) (TRef.of (T := ⟨S32x262144, .i32⟩) main_call0_v1) (broadcastInDim S32x262144 ![] bcast_S_S32x262144),
    TRef.binary (TRef.of (T := ⟨S32x262144, .i32⟩) main_call0_v1) (TRef.of (T := ⟨S32x262144, .i32⟩) main_v4) (TRef.of (T := ⟨S32x262144, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S32x262144, .i32⟩) main_call0_v4) (broadcastInDim S32x262144 ![] bcast_S_S32x262144),
    TRef.binary (TRef.of (T := ⟨S32x262144, .i32⟩) main_call0_v4) (TRef.of (T := ⟨S32x262144, .i32⟩) main_call0_v2) (TRef.of (T := ⟨S32x262144, .i32⟩) main_v10) minsi ]

/-- The clipped index as a column. -/
abbrev opsColumn : List (HloOp τ sig (Elt F)) :=
  [ unary main_v10 main_v11 (broadcastInDim S32x262144x1 ![0, 1] bcast_S32x262144_S32x262144x1_0_1 : (⟨S32x262144, .i32⟩ : BufTy).Contents (Elt F) → (⟨S32x262144x1, .i32⟩ : BufTy).Contents (Elt F)) ]

/-- The gather, first part: a negative index wrapped around (it never is one, after the clip). -/
abbrev opsWrap : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S32x262144x1, .i32⟩) main_call1_v0) (broadcastInDim S32x262144x1 ![] bcast_S_S32x262144x1),
    TRef.binary (TRef.of (T := ⟨S32x262144x1, .i32⟩) main_v11) (TRef.of (T := ⟨S32x262144x1, .i32⟩) main_call1_v0) (TRef.of (T := ⟨S32x262144x1, .i1⟩) main_call1_v1) (cmpi .slt),
    TRef.nullary (TRef.of (T := ⟨S_, .i32⟩) main_call1_c_0) (constantI S_ 32 131072#32),
    TRef.unary (TRef.of (T := ⟨S_, .i32⟩) main_call1_c_0) (TRef.of (T := ⟨S32x262144x1, .i32⟩) main_call1_v2) (broadcastInDim S32x262144x1 ![] bcast_S_S32x262144x1),
    TRef.binary (TRef.of (T := ⟨S32x262144x1, .i32⟩) main_v11) (TRef.of (T := ⟨S32x262144x1, .i32⟩) main_call1_v2) (TRef.of (T := ⟨S32x262144x1, .i32⟩) main_call1_v3) addi,
    TRef.ternary (TRef.of (T := ⟨S32x262144x1, .i1⟩) main_call1_v1) (TRef.of (T := ⟨S32x262144x1, .i32⟩) main_call1_v3) (TRef.of (T := ⟨S32x262144x1, .i32⟩) main_v11) (TRef.of (T := ⟨S32x262144x1, .i32⟩) main_call1_v4) select ]

/-- The gather, second part: the flag "the index is in range", per anchor. -/
abbrev opsInRange : List (HloOp τ sig (Elt F)) :=
  [ TRef.nullary (TRef.of (T := ⟨S1, .i32⟩) main_call1_c_1) (constantI S1 32 131071#32),
    TRef.nullary (TRef.of (T := ⟨S_, .i32⟩) main_call1_c_2) (constantI S_ 32 0#32),
    TRef.unary (TRef.of (T := ⟨S_, .i32⟩) main_call1_c_2) (TRef.of (T := ⟨S32x262144x1, .i32⟩) main_call1_v5) (broadcastInDim S32x262144x1 ![] bcast_S_S32x262144x1),
    TRef.binary (TRef.of (T := ⟨S32x262144x1, .i32⟩) main_call1_v4) (TRef.of (T := ⟨S32x262144x1, .i32⟩) main_call1_v5) (TRef.of (T := ⟨S32x262144x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S32x262144x1, .i32⟩) main_call1_v8) (broadcastInDim S32x262144x1 ![0, 1, 2] bcast_S1x1x1_S32x262144x1_0_1_2),
    TRef.binary (TRef.of (T := ⟨S32x262144x1, .i32⟩) main_call1_v4) (TRef.of (T := ⟨S32x262144x1, .i32⟩) main_call1_v8) (TRef.of (T := ⟨S32x262144x1, .i1⟩) main_call1_v9) (cmpi .sle),
    TRef.binary (TRef.of (T := ⟨S32x262144x1, .i1⟩) main_call1_v6) (TRef.of (T := ⟨S32x262144x1, .i1⟩) main_call1_v9) (TRef.of (T := ⟨S32x262144x1, .i1⟩) main_call1_v10) andi,
    TRef.nullary (TRef.of (T := ⟨S_, .i1⟩) main_call1_c_3) (constantI S_ 1 1#1),
    TRef.binary (TRef.of (T := ⟨S32x262144x1, .i1⟩) main_call1_v10) (TRef.of (T := ⟨S_, .i1⟩) main_call1_c_3) (TRef.of (T := ⟨S32x262144, .i1⟩) main_call1_v11) (fun x v => Host.reduce IntOp.andi x v reducesTo_S32x262144x1_S32x262144_d2 h_S_) ]

/-- The gather, third part: one pair per anchor, kept where the flag is set. -/
abbrev opsGather : List (HloOp τ sig (Elt F)) :=
  [ TRef.binary (TRef.of (T := ⟨S32x131072x2, .f32⟩) main_v9) (TRef.of (T := ⟨S32x262144x1, .i32⟩) main_call1_v4) (TRef.of (T := ⟨S32x262144x2, .f32⟩) main_call1_v12) (fun x i => Host.gather gather_S32x131072x2_S32x262144x1_S32x262144x2_2_1_0_0_1_2_112 x i),
    TRef.unary (TRef.of (T := ⟨S32x262144, .i1⟩) main_call1_v11) (TRef.of (T := ⟨S32x262144x2, .i1⟩) main_call1_v13) (broadcastInDim S32x262144x2 ![0, 1] bcast_S32x262144_S32x262144x2_0_1),
    TRef.nullary (TRef.of (T := ⟨S_, .f32⟩) main_call1_cst) (constant S_ .f32 0x7FC00000#32),
    TRef.unary (TRef.of (T := ⟨S_, .f32⟩) main_call1_cst) (TRef.of (T := ⟨S32x262144x2, .f32⟩) main_call1_v14) (broadcastInDim S32x262144x2 ![] bcast_S_S32x262144x2),
    TRef.ternary (TRef.of (T := ⟨S32x262144x2, .i1⟩) main_call1_v13) (TRef.of (T := ⟨S32x262144x2, .f32⟩) main_call1_v12) (TRef.of (T := ⟨S32x262144x2, .f32⟩) main_call1_v14) (TRef.of (T := ⟨S32x262144x2, .f32⟩) main_v12) select ]

/-- The masked smooth-L1 sum over everything, the mask count, and the quotient. -/
abbrev opsLoss : List (HloOp τ sig (Elt F)) :=
  [ binary main_v12 main_v1 main_v13 (subf : (⟨S32x262144x2, .f32⟩ : BufTy).Contents (Elt F) → (⟨S32x262144x2, .f32⟩ : BufTy).Contents (Elt F) → (⟨S32x262144x2, .f32⟩ : BufTy).Contents (Elt F)),
    unary main_v13 main_v14 (Host.absf : (⟨S32x262144x2, .f32⟩ : BufTy).Contents (Elt F) → (⟨S32x262144x2, .f32⟩ : BufTy).Contents (Elt F)),
    nullary main_cst_1 (constant S_ .f32 0x3F800000#32),
    unary main_cst_1 main_v15 (broadcastInDim S32x262144x2 ![] bcast_S_S32x262144x2 : (⟨S_, .f32⟩ : BufTy).Contents (Elt F) → (⟨S32x262144x2, .f32⟩ : BufTy).Contents (Elt F)),
    binary main_v14 main_v15 main_v16 (cmpf .olt : (⟨S32x262144x2, .f32⟩ : BufTy).Contents (Elt F) → (⟨S32x262144x2, .f32⟩ : BufTy).Contents (Elt F) → (⟨S32x262144x2, .i1⟩ : BufTy).Contents (Elt F)),
    nullary main_cst_2 (constant S_ .f32 0x3F000000#32),
    unary main_cst_2 main_v17 (broadcastInDim S32x262144x2 ![] bcast_S_S32x262144x2 : (⟨S_, .f32⟩ : BufTy).Contents (Elt F) → (⟨S32x262144x2, .f32⟩ : BufTy).Contents (Elt F)),
    binary main_v17 main_v13 main_v18 (mulf : (⟨S32x262144x2, .f32⟩ : BufTy).Contents (Elt F) → (⟨S32x262144x2, .f32⟩ : BufTy).Contents (Elt F) → (⟨S32x262144x2, .f32⟩ : BufTy).Contents (Elt F)),
    binary main_v18 main_v13 main_v19 (mulf : (⟨S32x262144x2, .f32⟩ : BufTy).Contents (Elt F) → (⟨S32x262144x2, .f32⟩ : BufTy).Contents (Elt F) → (⟨S32x262144x2, .f32⟩ : BufTy).Contents (Elt F)),
    nullary main_cst_3 (constant S_ .f32 0x3F000000#32),
    unary main_cst_3 main_v20 (broadcastInDim S32x262144x2 ![] bcast_S_S32x262144x2 : (⟨S_, .f32⟩ : BufTy).Contents (Elt F) → (⟨S32x262144x2, .f32⟩ : BufTy).Contents (Elt F)),
    binary main_v14 main_v20 main_v21 (subf : (⟨S32x262144x2, .f32⟩ : BufTy).Contents (Elt F) → (⟨S32x262144x2, .f32⟩ : BufTy).Contents (Elt F) → (⟨S32x262144x2, .f32⟩ : BufTy).Contents (Elt F)),
    TRef.ternary (TRef.of (T := ⟨S32x262144x2, .i1⟩) main_v16) (TRef.of (T := ⟨S32x262144x2, .f32⟩) main_v19) (TRef.of (T := ⟨S32x262144x2, .f32⟩) main_v21) (TRef.of (T := ⟨S32x262144x2, .f32⟩) main_v22) select,
    unary main_v8 main_v23 (uitofp .f32 : (⟨S32x262144, .i1⟩ : BufTy).Contents (Elt F) → (⟨S32x262144, .f32⟩ : BufTy).Contents (Elt F)),
    unary main_v23 main_v24 (broadcastInDim S32x262144x1 ![0, 1] bcast_S32x262144_S32x262144x1_0_1 : (⟨S32x262144, .f32⟩ : BufTy).Contents (Elt F) → (⟨S32x262144x1, .f32⟩ : BufTy).Contents (Elt F)),
    unary main_v24 main_v25 (broadcastInDim S32x262144x2 ![0, 1, 2] bcast_S32x262144x1_S32x262144x2_0_1_2 : (⟨S32x262144x1, .f32⟩ : BufTy).Contents (Elt F) → (⟨S32x262144x2, .f32⟩ : BufTy).Contents (Elt F)),
    binary main_v22 main_v25 main_v26 (mulf : (⟨S32x262144x2, .f32⟩ : BufTy).Contents (Elt F) → (⟨S32x262144x2, .f32⟩ : BufTy).Contents (Elt F) → (⟨S32x262144x2, .f32⟩ : BufTy).Contents (Elt F)),
    nullary main_cst_4 (constant S_ .f32 0x00000000#32),
    binary main_v26 main_cst_4 main_v27 ((fun x v => Host.reduceAdd x v reducesTo_S32x262144x2_S_d0_1_2 h_S_) : (⟨S32x262144x2, .f32⟩ : BufTy).Contents (Elt F) → (⟨S_, .f32⟩ : BufTy).Contents (Elt F) → (⟨S_, .f32⟩ : BufTy).Contents (Elt F)),
    nullary main_cst_5 (constant S_ .f32 0x00000000#32),
    binary main_v23 main_cst_5 main_v28 ((fun x v => Host.reduceAdd x v reducesTo_S32x262144_S_d0_1 h_S_) : (⟨S32x262144, .f32⟩ : BufTy).Contents (Elt F) → (⟨S_, .f32⟩ : BufTy).Contents (Elt F) → (⟨S_, .f32⟩ : BufTy).Contents (Elt F)),
    nullary main_cst_6 (constant S_ .f32 0x3F800000#32),
    binary main_cst_6 main_v28 main_v29 (maximumf : (⟨S_, .f32⟩ : BufTy).Contents (Elt F) → (⟨S_, .f32⟩ : BufTy).Contents (Elt F) → (⟨S_, .f32⟩ : BufTy).Contents (Elt F)),
    binary main_v27 main_v29 main_v30 (Host.divf : (⟨S_, .f32⟩ : BufTy).Contents (Elt F) → (⟨S_, .f32⟩ : BufTy).Contents (Elt F) → (⟨S_, .f32⟩ : BufTy).Contents (Elt F)),
    nullary main_cst_7 (constant S_ .f32 0x3F800000#32),
    binary main_v30 main_cst_7 main_v31 (mulf : (⟨S_, .f32⟩ : BufTy).Contents (Elt F) → (⟨S_, .f32⟩ : BufTy).Contents (Elt F) → (⟨S_, .f32⟩ : BufTy).Contents (Elt F)) ]

/-- The program's line is the five stretches in order. -/
theorem ops_split : (ops : List (HloOp τ sig (Elt F))) = opsTable ++ (opsClip ++ (opsColumn ++ (opsWrap ++ (opsInRange ++ (opsGather ++ opsLoss))))) := rfl

/-- One stretch's buffers read back: the fold over the stretch, then the calls' transports. -/
local macro "read_stretch" : tactic =>
  `(tactic| (after_results_simp <;> (try simp only [TRef.ofBuf, TRef.toBuf, cast_eq])))

variable (x0 : (⟨S32x262144, .f32⟩ : BufTy).Contents (Elt F)) (x1 : (⟨S32x262144x4, .f32⟩ : BufTy).Contents (Elt F))

/-- After the first stretch: the transposed table, the converted index, the two bounds, the target pairs, the mask. -/
def AfterTable (W : Valuation τ sig (Elt F)) : Prop :=
  W (Proc.devRef .tc main_v9) = val_main_v9 (F := F) x0 ∧ W (Proc.devRef .tc main_v4) = val_main_v4 (F := F) x1
    ∧ W (Proc.devRef .tc main_c) = val_main_c (F := F) ∧ W (Proc.devRef .tc main_c_0) = val_main_c_0 (F := F)
    ∧ W (Proc.devRef .tc main_v1) = val_main_v1 (F := F) x1 ∧ W (Proc.devRef .tc main_v8) = val_main_v8 (F := F) x1

/-- After the clip: the clipped index; the table, the pairs and the mask as before. -/
def AfterClip (W : Valuation τ sig (Elt F)) : Prop :=
  W (Proc.devRef .tc main_v10) = val_main_v10 (F := F) x1 ∧ W (Proc.devRef .tc main_v9) = val_main_v9 (F := F) x0
    ∧ W (Proc.devRef .tc main_v1) = val_main_v1 (F := F) x1 ∧ W (Proc.devRef .tc main_v8) = val_main_v8 (F := F) x1

/-- After the column: the clipped index as a column; the rest as before. -/
def AfterColumn (W : Valuation τ sig (Elt F)) : Prop :=
  W (Proc.devRef .tc main_v11) = val_main_v11 (F := F) x1 ∧ W (Proc.devRef .tc main_v9) = val_main_v9 (F := F) x0
    ∧ W (Proc.devRef .tc main_v1) = val_main_v1 (F := F) x1 ∧ W (Proc.devRef .tc main_v8) = val_main_v8 (F := F) x1

/-- After the wrap: the wrapped index; the table, the pairs and the mask as before. -/
def AfterWrap (W : Valuation τ sig (Elt F)) : Prop :=
  W (Proc.devRef .tc main_call1_v4) = val_main_call1_v4 (F := F) x1 ∧ W (Proc.devRef .tc main_v9) = val_main_v9 (F := F) x0
    ∧ W (Proc.devRef .tc main_v1) = val_main_v1 (F := F) x1 ∧ W (Proc.devRef .tc main_v8) = val_main_v8 (F := F) x1

/-- After the range test: the flag; the wrapped index and the rest as before. -/
def AfterInRange (W : Valuation τ sig (Elt F)) : Prop :=
  W (Proc.devRef .tc main_call1_v11) = val_main_call1_v11 (F := F) x1 ∧ W (Proc.devRef .tc main_call1_v4) = val_main_call1_v4 (F := F) x1
    ∧ W (Proc.devRef .tc main_v9) = val_main_v9 (F := F) x0
    ∧ W (Proc.devRef .tc main_v1) = val_main_v1 (F := F) x1 ∧ W (Proc.devRef .tc main_v8) = val_main_v8 (F := F) x1

/-- After the gather: the gathered pairs, the target pairs, the mask. -/
def AfterGather (W : Valuation τ sig (Elt F)) : Prop :=
  W (Proc.devRef .tc main_v12) = val_main_v12 (F := F) x0 x1
    ∧ W (Proc.devRef .tc main_v1) = val_main_v1 (F := F) x1 ∧ W (Proc.devRef .tc main_v8) = val_main_v8 (F := F) x1

theorem table_stage (V : Valuation τ sig (Elt F)) (h0 : V (Proc.devRef .tc main_arg0) = x0) (h1 : V (Proc.devRef .tc main_arg1) = x1) :
    AfterTable x0 x1 (after opsTable V) := by
  subst h0 h1
  refine ⟨?_, ?_, ?_, ?_, ?_, ?_⟩ <;> (read_stretch <;> rfl)

theorem clip_stage (W : Valuation τ sig (Elt F)) (h : AfterTable x0 x1 W) : AfterClip x0 x1 (after opsClip W) := by
  obtain ⟨h9, h4, hc, hc0, h1, h8⟩ := h
  refine ⟨?_, ?_, ?_, ?_⟩
  · read_stretch; rw [h4, hc, hc0]; rfl
  · read_stretch; exact h9
  · read_stretch; exact h1
  · read_stretch; exact h8

theorem column_stage (W : Valuation τ sig (Elt F)) (h : AfterClip x0 x1 W) : AfterColumn x0 x1 (after opsColumn W) := by
  obtain ⟨h10, h9, h1, h8⟩ := h
  refine ⟨?_, ?_, ?_, ?_⟩
  · read_stretch; rw [h10]; rfl
  · read_stretch; exact h9
  · read_stretch; exact h1
  · read_stretch; exact h8

theorem wrap_stage (W : Valuation τ sig (Elt F)) (h : AfterColumn x0 x1 W) : AfterWrap x0 x1 (after opsWrap W) := by
  obtain ⟨h11, h9, h1, h8⟩ := h
  refine ⟨?_, ?_, ?_, ?_⟩
  · read_stretch; rw [h11]; rfl
  · read_stretch; exact h9
  · read_stretch; exact h1
  · read_stretch; exact h8

theorem inRange_stage (W : Valuation τ sig (Elt F)) (h : AfterWrap x0 x1 W) : AfterInRange x0 x1 (after opsInRange W) := by
  obtain ⟨h4, h9, h1, h8⟩ := h
  refine ⟨?_, ?_, ?_, ?_, ?_⟩
  · read_stretch; rw [h4]; rfl
  · read_stretch; exact h4
  · read_stretch; exact h9
  · read_stretch; exact h1
  · read_stretch; exact h8

theorem gather_stage (W : Valuation τ sig (Elt F)) (h : AfterInRange x0 x1 W) : AfterGather x0 x1 (after opsGather W) := by
  obtain ⟨hf, h4, h9, h1, h8⟩ := h
  refine ⟨?_, ?_, ?_⟩
  · read_stretch; rw [hf, h4, h9]; rfl
  · read_stretch; exact h1
  · read_stretch; exact h8

theorem loss_stage (W : Valuation τ sig (Elt F)) (h : AfterGather x0 x1 W) :
    after opsLoss W (Proc.devRef .tc main_v31) = val_main_v31 (F := F) x0 x1 := by
  obtain ⟨h12, h1, h8⟩ := h
  read_stretch; rw [h12, h1, h8]; rfl

/-- The whole line: the result buffer holds the last stage of the two arguments. -/
theorem result_eq (V : Valuation τ sig (Elt F)) :
    after ops V (Proc.devRef .tc main_v31)
      = val_main_v31 (F := F) (V (Proc.devRef .tc main_arg0)) (V (Proc.devRef .tc main_arg1)) := by
  rw [ops_split, StableHlo.after_append, StableHlo.after_append, StableHlo.after_append, StableHlo.after_append,
    StableHlo.after_append, StableHlo.after_append]
  exact loss_stage _ _ _ (gather_stage _ _ _ (inRange_stage _ _ _ (wrap_stage _ _ _ (column_stage _ _ _ (clip_stage _ _ _
    (table_stage _ _ V rfl rfl))))))

set_option maxRecDepth 8192 in
set_option maxHeartbeats 4000000 in
/-- On every device, from any memory with zero counters: every weakly fair execution of the reference terminates
    with its result at the last stage of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = val_main_v31 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v31).trans (result_eq (launchContents m c)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.Stages

end
-- ==== Proof.KPieces.lean ====
/-
  What one grid point leaves in the two accumulators, read off the pieces the generated runs found.

  The body is run in two cases. At the first anchor tile of a batch row (second grid coordinate 0) it resets both
  one-element accumulators to zero and then adds this tile's contribution to what it just stored; at the second tile
  it adds the contribution to what the tile before left. In both cases each accumulator ends with ONE covering store
  on top (over the reset store, in the first case), so its contents are that store's value: the loss accumulator holds
  the loss payload of the three input blocks and the accumulator's previous contents, the mask-count accumulator the
  count payload of the mask block and its previous contents. Stated for every float instance.
-/
import proofs.«150206_j46858093200031_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- The origin of a rank-3 block, as the constant-zero offset. -/
theorem hz : (![0, 0, 0] : Fin 3 → Nat) = fun _ => 0 := funext fun a => by fin_cases a <;> rfl

/-- Second tile, loss: the previous contents plus this tile's masked loss. -/
theorem loss_second (c : Dev nD) (i : grid0.Coords) (a2 : Memref sig .tc .vmem S1x131072x2 .f32) (h2 : a2.IsWhole) (a3 : Memref sig .tc .vmem S1x131072x2 .f32) (h3 : a3.IsWhole) (a4 : Memref sig .tc .vmem S1x131072x1 .f32) (h4 : a4.IsWhole) (a5 : Memref sig .tc .vmem S1x1x1 .f32) (h5 : a5.IsWhole) (a6 : Memref sig .tc .vmem S1x1x1 .f32) (h6 : a6.IsWhole) (hc : ¬cond0_0 i)
    (x0 x1 : Vec F S1x131072x2 .f32) (x2 : Vec F S1x131072x1 .f32) (xo3 xo4 : Vec F S1x1x1 .f32) :
    out0_B_3 c i a2 h2 a3 h3 a4 h4 a5 h5 a6 h6 hc x0 x1 x2 xo3 xo4 = k0_pay5 x0 x1 x2 xo3 := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz]
  simp only [View.readAt_eq_ld, h2.read_unread, h3.read_unread, h4.read_unread, h5.read_unread, h6.read_unread,
    View.ld_unit_zero (S := S1x131072x2) hz, View.ld_unit_zero (S := S1x131072x1) hz, View.ld_unit_zero (S := S1x1x1) hz]

/-- Second tile, mask count: the previous contents plus this tile's count. -/
theorem count_second (c : Dev nD) (i : grid0.Coords) (a2 : Memref sig .tc .vmem S1x131072x2 .f32) (h2 : a2.IsWhole) (a3 : Memref sig .tc .vmem S1x131072x2 .f32) (h3 : a3.IsWhole) (a4 : Memref sig .tc .vmem S1x131072x1 .f32) (h4 : a4.IsWhole) (a5 : Memref sig .tc .vmem S1x1x1 .f32) (h5 : a5.IsWhole) (a6 : Memref sig .tc .vmem S1x1x1 .f32) (h6 : a6.IsWhole) (hc : ¬cond0_0 i)
    (x0 x1 : Vec F S1x131072x2 .f32) (x2 : Vec F S1x131072x1 .f32) (xo3 xo4 : Vec F S1x1x1 .f32) :
    out0_B_4 c i a2 h2 a3 h3 a4 h4 a5 h5 a6 h6 hc x0 x1 x2 xo3 xo4 = k0_pay1 (k0_pay4 x2) (k0_pay6 xo4) := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz]
  simp only [View.readAt_eq_ld, h2.read_unread, h3.read_unread, h4.read_unread, h5.read_unread, h6.read_unread,
    View.ld_unit_zero (S := S1x131072x2) hz, View.ld_unit_zero (S := S1x131072x1) hz, View.ld_unit_zero (S := S1x1x1) hz]

/-- First tile, loss: zero plus this tile's masked loss (the reset is read back). -/
theorem loss_first (c : Dev nD) (i : grid0.Coords) (a2 : Memref sig .tc .vmem S1x131072x2 .f32) (h2 : a2.IsWhole) (a3 : Memref sig .tc .vmem S1x131072x2 .f32) (h3 : a3.IsWhole) (a4 : Memref sig .tc .vmem S1x131072x1 .f32) (h4 : a4.IsWhole) (a5 : Memref sig .tc .vmem S1x1x1 .f32) (h5 : a5.IsWhole) (a6 : Memref sig .tc .vmem S1x1x1 .f32) (h6 : a6.IsWhole) (hc : cond0_0 i)
    (x0 x1 : Vec F S1x131072x2 .f32) (x2 : Vec F S1x131072x1 .f32) :
    out0_A_3 c i a2 h2 a3 h3 a4 h4 a5 h5 a6 h6 hc x0 x1 x2 = k0_pay5 x0 x1 x2 k0_pay2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1x1x1) hz, View.readCov_unit_zero (S := S1x1x1) _ hz]
  simp only [View.readAt_eq_ld, h2.read_unread, h3.read_unread, h4.read_unread, h5.read_unread, h6.read_unread,
    View.ld_unit_zero (S := S1x131072x2) hz, View.ld_unit_zero (S := S1x131072x1) hz, View.ld_unit_zero (S := S1x1x1) hz]

/-- First tile, mask count: zero plus this tile's count. -/
theorem count_first (c : Dev nD) (i : grid0.Coords) (a2 : Memref sig .tc .vmem S1x131072x2 .f32) (h2 : a2.IsWhole) (a3 : Memref sig .tc .vmem S1x131072x2 .f32) (h3 : a3.IsWhole) (a4 : Memref sig .tc .vmem S1x131072x1 .f32) (h4 : a4.IsWhole) (a5 : Memref sig .tc .vmem S1x1x1 .f32) (h5 : a5.IsWhole) (a6 : Memref sig .tc .vmem S1x1x1 .f32) (h6 : a6.IsWhole) (hc : cond0_0 i)
    (x0 x1 : Vec F S1x131072x2 .f32) (x2 : Vec F S1x131072x1 .f32) :
    out0_A_4 c i a2 h2 a3 h3 a4 h4 a5 h5 a6 h6 hc x0 x1 x2 = k0_pay1 (k0_pay4 x2) (k0_pay6 k0_pay3) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x1x1) hz, View.readCov_unit_zero (S := S1x1x1) _ hz]
  simp only [View.readAt_eq_ld, h2.read_unread, h3.read_unread, h4.read_unread, h5.read_unread, h6.read_unread,
    View.ld_unit_zero (S := S1x131072x2) hz, View.ld_unit_zero (S := S1x131072x1) hz, View.ld_unit_zero (S := S1x1x1) hz]

end Cert.KernelIdeal.Acc

end
-- ==== Proof.LibBlockSum.lean ====
/-
  A finite sum taken run by run.

  An index set of `n * B` elements splits into `n` consecutive runs of `B`; in a commutative monoid the sum of a
  function over the whole set is the sum, over the runs, of its sums over each run. Stated twice: over initial
  segments of the naturals, and over `Fin (n * B)` through the bijection `(s, r) ↦ r + B * s` (`finProdFinEquiv`),
  whose value is spelled out so that a caller can name the element of run `s` at offset `r` by arithmetic.
  Nothing here is about floats: the extended reals are one such monoid, and a contraction accumulated block by
  block is re-bracketed to the whole contraction by these lemmas.
-/
import Mathlib.Algebra.BigOperators.Fin
import Mathlib.Logic.Equiv.Fin.Basic

namespace LibBlockSum

open Finset

/-- Over the naturals: the first `B * n` terms are the first `n` runs of `B` terms, run `s` starting at `B * s`. -/
theorem sum_range_runs {M : Type*} [AddCommMonoid M] (B : ℕ) (f : ℕ → M) :
    ∀ n : ℕ, ∑ s ∈ range n, ∑ r ∈ range B, f (B * s + r) = ∑ k ∈ range (B * n), f k
  | 0 => by simp
  | n + 1 => by
    rw [sum_range_succ, sum_range_runs B f n, Nat.mul_succ, sum_range_add]

/-- Over `Fin (n * B)`: the sum over all indices is the sum over the runs `s` of the sums over the offsets `r`. -/
theorem sum_fin_runs {M : Type*} [AddCommMonoid M] (n B : ℕ) (f : Fin (n * B) → M) :
    ∑ s : Fin n, ∑ r : Fin B, f (finProdFinEquiv (s, r)) = ∑ k : Fin (n * B), f k :=
  (Fintype.sum_prod_type' fun s r => f (finProdFinEquiv (s, r))).symm.trans (Equiv.sum_comp finProdFinEquiv f)

/-- The element of run `s` at offset `r` sits at position `r + B * s`. -/
theorem finProdFinEquiv_val (n B : ℕ) (s : Fin n) (r : Fin B) :
    ((finProdFinEquiv (s, r) : Fin (n * B)) : ℕ) = r.val + B * s.val := rfl

/-- The same with the caller's own numbering of the runs: any `col s r : Fin N` sitting at position `r + B * s`,
    for `N = n * B` given as an equation (so that `N` may be a literal). -/
theorem sum_fin_runs_of {M : Type*} [AddCommMonoid M] (n B N : ℕ) (hN : N = n * B) (f : Fin N → M)
    (col : Fin n → Fin B → Fin N) (hcol : ∀ s r, (col s r).val = r.val + B * s.val) :
    ∑ s : Fin n, ∑ r : Fin B, f (col s r) = ∑ k : Fin N, f k := by
  subst hN
  rw [← sum_fin_runs n B f]
  refine Finset.sum_congr rfl fun s _ => Finset.sum_congr rfl fun r _ => ?_
  exact congrArg f (Fin.ext ((hcol s r).trans (finProdFinEquiv_val n B s r).symm))

/-- A sum over an initial segment of the naturals whose terms only look at the index below the bound is the sum over
    `Fin` of the same terms. -/
theorem sum_range_eq_sum_fin {M : Type*} [AddCommMonoid M] (n : ℕ) (f : ℕ → M) :
    ∑ s ∈ range n, f s = ∑ s : Fin n, f s.val :=
  (Fin.sum_univ_eq_sum_range f n).symm

end LibBlockSum
-- ==== Proof.SmoothL1.lean ====
/-
  The masked smooth-L1 sum and how it regroups.

  Per element the loss is the Huber function of a difference `d = g - r`: `(1/2 · d) · d` where `|d| < 1`, else
  `|d| - 1/2`, times a 0/1 mask weight that depends on the batch row and the anchor only. The quantity of interest is
  the sum of these terms over all (batch row, anchor, channel) triples, divided by the larger of one and the number of
  unmasked anchors.

  One side takes the total in a single sweep; the other takes, for each batch row, the two halves of the anchor axis
  one after the other (each half summed over channels first and over anchors second, starting from zero) and then adds
  up the rows. Addition on the extended reals is commutative and associative, so the two agree for every input, the
  infinities included: nothing here needs a finiteness hypothesis.
-/
import Idealize.ShloMosaic.Lib.ValueIdx
import Idealize.ShloMosaic.PureOps.Ideal.Laws
import proofs.«150206_j46858093200031_1_alg».proof.Proof.LibBlockSum

noncomputable section

open scoped BigOperators

namespace Cert.SmoothL1

open Idealize.ShloMosaic Idealize.ShloMosaic.ValueIdx

/-- The Huber function of a difference, with the two constants kept as the words the programs print. -/
def huber (d : EReal) : EReal :=
  Scalar.select (Ideal.cmp .olt (max d (-d)) (Ideal.ofBits .f32 0x3F800000#32))
    (Ideal.ofBits .f32 0x3F000000#32 * d * d) (max d (-d) - Ideal.ofBits .f32 0x3F000000#32)

/-- One masked term: the Huber loss of `g - r`, weighted by `w`. -/
def term (g r w : EReal) : EReal := huber (g - r) * w

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Anchor `a` of half `t` of the anchor axis: position `a + 131072 · t`. -/
def anchor (t : Fin 2) (a : Fin 131072) : Fin 262144 :=
  ⟨a.val + 131072 * t.val, by have := t.isLt; have := a.isLt; omega⟩

/-- A sum over the anchor axis is the first half's sum plus the second half's. -/
theorem sum_halves {M : Type*} [AddCommMonoid M] (f : Fin 262144 → M) :
    ∑ a : Fin 131072, f (anchor 0 a) + ∑ a : Fin 131072, f (anchor 1 a) = ∑ k : Fin 262144, f k := by
  rw [← LibBlockSum.sum_fin_runs_of 2 131072 262144 (by norm_num) f anchor (fun _ _ => rfl), Fin.sum_univ_two]

/-- THE LOSS REGROUPED. Row by row, zero plus the first half's channel-then-anchor sum, plus the second half's, added
    over the rows from zero, is the total over all triples from zero. -/
theorem loss_regroup (X : (⟨3, ![32, 262144, 2]⟩ : Shape).Idx → EReal) (z : EReal) :
    z + ∑ j : (⟨3, ![32, 1, 1]⟩ : Shape).Idx,
        ((0 + ∑ a : Fin 131072, ∑ c : Fin 2, X (ix3 (j 0) (anchor 0 a) c))
          + ∑ a : Fin 131072, ∑ c : Fin 2, X (ix3 (j 0) (anchor 1 a) c))
      = z + ∑ i, X i := by
  refine congrArg (z + ·) ?_
  rw [sum_idx3, sum_idx3]
  refine Finset.sum_congr rfl fun b _ => ?_
  rw [Fin.sum_univ_one, Fin.sum_univ_one, zero_add]
  exact sum_halves fun k => ∑ c : Fin 2, X (ix3 b k c)

/-- THE MASK COUNT REGROUPED, the mask given as a column `W` that repeats a flat mask `Wf`. -/
theorem count_regroup (W : (⟨3, ![32, 262144, 1]⟩ : Shape).Idx → EReal) (Wf : (⟨2, ![32, 262144]⟩ : Shape).Idx → EReal)
    (hW : ∀ (b : Fin 32) (k : Fin 262144), W (ix3 b k 0) = Wf (ix2 b k)) (z : EReal) :
    z + ∑ j : (⟨3, ![32, 1, 1]⟩ : Shape).Idx,
        ((0 + ∑ a : Fin 131072, W (ix3 (j 0) (anchor 0 a) 0)) + ∑ a : Fin 131072, W (ix3 (j 0) (anchor 1 a) 0))
      = z + ∑ i, Wf i := by
  refine congrArg (z + ·) ?_
  rw [sum_idx3, sum_idx2]
  refine Finset.sum_congr rfl fun b _ => ?_
  rw [Fin.sum_univ_one, Fin.sum_univ_one, zero_add]
  exact (sum_halves fun k => W (ix3 b k 0)).trans (Finset.sum_congr rfl fun k _ => hW b k)

/-- The mask column's index under a pair index: same batch row and anchor, the one channel. -/
def col (i : (⟨3, ![32, 262144, 2]⟩ : Shape).Idx) : (⟨3, ![32, 262144, 1]⟩ : Shape).Idx :=
  ix3 (n0 := 32) (n1 := 262144) (n2 := 1) (i 0) (i 1) 0

/-- One batch row's masked loss, taken half by half: zero plus the first half's sum, plus the second half's. -/
def rowLoss (G R : (⟨3, ![32, 262144, 2]⟩ : Shape).Idx → EReal) (W : (⟨3, ![32, 262144, 1]⟩ : Shape).Idx → EReal)
    (b : Fin 32) : EReal :=
  (0 + ∑ a : Fin 131072, ∑ c : Fin 2, term (G (ix3 b (anchor 0 a) c)) (R (ix3 b (anchor 0 a) c)) (W (ix3 b (anchor 0 a) 0)))
    + ∑ a : Fin 131072, ∑ c : Fin 2, term (G (ix3 b (anchor 1 a) c)) (R (ix3 b (anchor 1 a) c)) (W (ix3 b (anchor 1 a) 0))

/-- One batch row's mask count, taken half by half. -/
def rowCount (W : (⟨3, ![32, 262144, 1]⟩ : Shape).Idx → EReal) (b : Fin 32) : EReal :=
  (0 + ∑ a : Fin 131072, W (ix3 b (anchor 0 a) 0)) + ∑ a : Fin 131072, W (ix3 b (anchor 1 a) 0)

/-- The rows' losses added up from `z` are the total masked loss from `z`. -/
theorem total_loss (G R : (⟨3, ![32, 262144, 2]⟩ : Shape).Idx → EReal) (W : (⟨3, ![32, 262144, 1]⟩ : Shape).Idx → EReal) (z : EReal) :
    z + ∑ j : (⟨3, ![32, 1, 1]⟩ : Shape).Idx, rowLoss G R W (j 0) = z + ∑ i, term (G i) (R i) (W (col i)) :=
  loss_regroup (fun i => term (G i) (R i) (W (col i))) z

/-- The rows' mask counts added up from `z` are the total count from `z`. -/
theorem total_count (W : (⟨3, ![32, 262144, 1]⟩ : Shape).Idx → EReal) (Wf : (⟨2, ![32, 262144]⟩ : Shape).Idx → EReal)
    (hW : ∀ (b : Fin 32) (k : Fin 262144), W (ix3 b k 0) = Wf (ix2 b k)) (z : EReal) :
    z + ∑ j : (⟨3, ![32, 1, 1]⟩ : Shape).Idx, rowCount W (j 0) = z + ∑ i, Wf i :=
  count_regroup W Wf hW z

end Cert.SmoothL1

end
-- ==== Proof.KBlock.lean ====
/-
  One grid point's contribution, read at the accumulator's single element.

  A point of the grid holds one batch row's half of the anchor axis: blocks `g`, `r` of shape 1 × 131072 × 2 (the
  gathered pairs and the target pairs) and a mask column `w` of shape 1 × 131072 × 1. What the body adds to the loss
  accumulator is the masked Huber term summed over the channel axis first and over the anchors second, each sum from
  zero; what it adds to the mask-count accumulator is the mask column summed over the anchors. Read on the extended
  reals, both reductions are plain finite sums over the coordinates.
-/
import proofs.«150206_j46858093200031_1_alg».proof.Proof.Gen.KernelIdeal.Skeleton
import proofs.«150206_j46858093200031_1_alg».proof.Proof.SmoothL1
import Idealize.ShloMosaic.Lib.Pipeline.Value

noncomputable section

open scoped BigOperators
open Idealize.ShloMosaic Idealize.ShloMosaic.ValueIdx

namespace Cert.KernelIdeal.Acc

open Cert.KernelIdeal Cert.KernelIdeal.Gen Cert.SmoothL1

/-- The accumulator has one element. -/
theorem one_idx (j : S1x1x1.Idx) : j = ix3 (0 : Fin 1) (0 : Fin 1) (0 : Fin 1) := by
  funext a
  match a with
  | ⟨0, _⟩ => exact Fin.eq_zero _
  | ⟨1, _⟩ => exact Fin.eq_zero _
  | ⟨2, _⟩ => exact Fin.eq_zero _

/-- A column summed over its anchors and viewed as the accumulator's shape: the sum over the anchors. -/
theorem anchors_sum (w : FVec Ideal S1x131072x1 .f32) (h : S1x131072x1.Reduces [1] S1x1) (hφ : FKind.Formats .f32)
    (hacc : (0x00000000#32 : BitVec 32) = FKind.add.neutral .f32 hφ) (hc : S1x1.ShapeCasts S1x1x1) (j : S1x1x1.Idx) :
    shapeCast S1x1x1 (multiReduction .add [1] S1x1 w 0x00000000#32 h hφ hacc) hc j
      = ∑ a : Fin 131072, w (ix3 (0 : Fin 1) a (0 : Fin 1)) := by
  obtain rfl := one_idx j
  refine (shapeCast_addUnit_apply ![1, 1] _ hc _).trans ?_
  refine (Ideal.multiReduction_add_single w _ h hφ hacc _).trans ?_
  refine Finset.sum_congr rfl fun k _ => congrArg w ?_
  funext b
  apply Fin.ext
  match b with
  | ⟨0, _⟩ => rfl
  | ⟨1, _⟩ => rfl
  | ⟨2, _⟩ => rfl

/-- The pairs summed over the channel axis and viewed as a column, at anchor `a`: the sum over the two channels. -/
theorem channels_sum (v : FVec Ideal S1x131072x2 .f32) (h : S1x131072x2.Reduces [2] S1x131072) (hφ : FKind.Formats .f32)
    (hacc : (0x00000000#32 : BitVec 32) = FKind.add.neutral .f32 hφ) (hc : S1x131072.ShapeCasts S1x131072x1) (a : Fin 131072) :
    shapeCast S1x131072x1 (multiReduction .add [2] S1x131072 v 0x00000000#32 h hφ hacc) hc (ix3 (0 : Fin 1) a (0 : Fin 1))
      = ∑ c : Fin 2, v (ix3 (0 : Fin 1) a c) := by
  refine (shapeCast_apply _ hc _ (ix2 (0 : Fin 1) a) ?_).trans ?_
  · rw [Shape.rowMajor_val_two, Shape.rowMajor_val_three]
    show (0 : Fin 1).val * 131072 + a.val = ((0 : Fin 1).val * 131072 + a.val) * 1 + (0 : Fin 1).val
    simp
  refine (Ideal.multiReduction_add_single v _ h hφ hacc _).trans ?_
  refine Finset.sum_congr rfl fun k _ => congrArg v ?_
  funext b
  apply Fin.ext
  match b with
  | ⟨0, _⟩ => rfl
  | ⟨1, _⟩ => rfl
  | ⟨2, _⟩ => rfl

/-- The mask column repeated along the channel axis reads the column. -/
theorem mask_repeat (w : FVec Ideal S1x131072x1 .f32) (h : S1x131072x1.Broadcasts S1x131072x2) (a : Fin 131072) (c : Fin 2) :
    broadcastTo S1x131072x2 w h (ix3 (0 : Fin 1) a c) = w (ix3 (0 : Fin 1) a (0 : Fin 1)) :=
  broadcastTo_apply w h _ _ fun b => match b with
    | ⟨0, _⟩ => rfl
    | ⟨1, _⟩ => rfl
    | ⟨2, _⟩ => rfl

/-- THE LOSS PAYLOAD at the accumulator's element: its previous contents plus this half's masked Huber sum. -/
theorem loss_at (g r : Vec Ideal S1x131072x2 .f32) (w : Vec Ideal S1x131072x1 .f32) (acc : Vec Ideal S1x1x1 .f32) (j : S1x1x1.Idx) :
    k0_pay5 (F := Ideal) g r w acc j
      = acc j + ∑ a : Fin 131072, ∑ c : Fin 2,
          term (g (ix3 (0 : Fin 1) a c)) (r (ix3 (0 : Fin 1) a c)) (w (ix3 (0 : Fin 1) a (0 : Fin 1))) := by
  unfold k0_pay5 k0_pay4
  dsimp only
  rw [shapeCast_self, shapeCast_self, shapeCast_self, shapeCast_self]
  refine (addf_apply _ _ j).trans (congrArg (acc j + ·) ?_)
  refine (anchors_sum _ _ _ _ _ j).trans (Finset.sum_congr rfl fun a _ => ?_)
  refine (channels_sum _ _ _ _ _ a).trans (Finset.sum_congr rfl fun c _ => ?_)
  refine (mulf_apply _ _ _).trans ?_
  rw [mask_repeat]
  rfl

/-- THE MASK-COUNT PAYLOAD at the accumulator's element: its previous contents plus this half's mask sum. -/
theorem count_at (w : Vec Ideal S1x131072x1 .f32) (acc : Vec Ideal S1x1x1 .f32) (j : S1x1x1.Idx) :
    k0_pay1 (F := Ideal) (k0_pay4 w) (k0_pay6 acc) j = acc j + ∑ a : Fin 131072, w (ix3 (0 : Fin 1) a (0 : Fin 1)) := by
  unfold k0_pay1 k0_pay4 k0_pay6
  dsimp only
  rw [shapeCast_self, shapeCast_self]
  refine (addf_apply _ _ j).trans (congrArg (acc j + ·) ?_)
  exact anchors_sum _ _ _ _ _ j

/-- The reset values are zero. -/
theorem reset_loss (j : S1x1x1.Idx) : (k0_pay2 (F := Ideal)) j = 0 := Ideal.ofBits_zero_f32
theorem reset_count (j : S1x1x1.Idx) : (k0_pay3 (F := Ideal)) j = 0 := Ideal.ofBits_zero_f32

end Cert.KernelIdeal.Acc

end
-- ==== Proof.KFold.lean ====
/-
  What the two accumulators hold point by point, and the two arrays the region leaves.

  The grid has 64 points: point `t` is batch row `t / 2`, half `t % 2` of the anchor axis. At an even point both
  accumulators are reset and then receive this half's contribution, so they hold zero plus it; at the odd point that
  follows they receive the second half's contribution on top. Only the odd points write an accumulator back, into
  element `t / 2` of its 32-element array, and every element is written by exactly one of them: so after the region
  the loss array holds each row's loss and the count array each row's mask count, both taken half by half.
  An input block's element at anchor `a` of half `s` is the array's element at anchor `a + 131072 · s` of its row.
-/
import proofs.«150206_j46858093200031_1_alg».proof.Proof.KPieces
import proofs.«150206_j46858093200031_1_alg».proof.Proof.KBlock
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.SmoothL1

variable (m : (ℓ : Loc nD τ sig) → Buf (Elt Ideal) ℓ) (ρ : Dev nD → PrngReg)

/-- The three input blocks of a point, and the three arrays they are blocks of, at their literal types. -/
abbrev gblk (c : Dev nD) (t : Fin cfg0.N) : Vec Ideal S1x131072x2 .f32 := iblk m c 0 t
abbrev rblk (c : Dev nD) (t : Fin cfg0.N) : Vec Ideal S1x131072x2 .f32 := iblk m c 1 t
abbrev wblk (c : Dev nD) (t : Fin cfg0.N) : Vec Ideal S1x131072x1 .f32 := iblk m c 2 t
abbrev garr (c : Dev nD) : Vec Ideal S32x262144x2 .f32 := V m c (Pipeline.arrRef spec0 0)
abbrev rarr (c : Dev nD) : Vec Ideal S32x262144x2 .f32 := V m c (Pipeline.arrRef spec0 1)
abbrev warr (c : Dev nD) : Vec Ideal S32x262144x1 .f32 := V m c (Pipeline.arrRef spec0 2)

/-- One point's contribution to the loss, and to the mask count. -/
def lossTile (c : Dev nD) (t : Fin cfg0.N) : EReal :=
  ∑ a : Fin 131072, ∑ ch : Fin 2,
    term (gblk m c t (ix3 (0 : Fin 1) a ch)) (rblk m c t (ix3 (0 : Fin 1) a ch)) (wblk m c t (ix3 (0 : Fin 1) a (0 : Fin 1)))
def countTile (c : Dev nD) (t : Fin cfg0.N) : EReal := ∑ a : Fin 131072, wblk m c t (ix3 (0 : Fin 1) a (0 : Fin 1))

/-- The point before. -/
abbrev prevPt (t : Fin cfg0.N) : Fin cfg0.N := ⟨t.val - 1, Nat.lt_of_le_of_lt (Nat.sub_le _ _) t.isLt⟩

/-- EVEN POINTS: zero plus this half's contribution. -/
theorem outs_first (c : Dev nD) (t : Fin cfg0.N) (h0 : t.val % 2 = 0) (j : S1x1x1.Idx) :
    (outsAt0 m c t.val t.isLt).1 j = 0 + lossTile m c t ∧ (outsAt0 m c t.val t.isLt).2 j = 0 + countTile m c t := by
  rw [outsAt0_A m c t h0]
  dsimp only
  constructor
  · refine (congrFun (loss_first (F := Ideal) c (grid0.coords t) (ms0_0 t) (hs0_0 t) (ms0_1 t) (hs0_1 t) (ms0_2 t) (hs0_2 t) (ms0_3 t) (hs0_3 t) (ms0_4 t) (hs0_4 t) ((hcond0_0 t).mpr h0)
      (iblk m c 0 t) (iblk m c 1 t) (iblk m c 2 t)) j).trans ?_
    refine (loss_at (gblk m c t) (rblk m c t) (wblk m c t) (k0_pay2 (F := Ideal)) j).trans ?_
    exact congrArg (· + lossTile m c t) (reset_loss j)
  · refine (congrFun (count_first (F := Ideal) c (grid0.coords t) (ms0_0 t) (hs0_0 t) (ms0_1 t) (hs0_1 t) (ms0_2 t) (hs0_2 t) (ms0_3 t) (hs0_3 t) (ms0_4 t) (hs0_4 t) ((hcond0_0 t).mpr h0)
      (iblk m c 0 t) (iblk m c 1 t) (iblk m c 2 t)) j).trans ?_
    refine (count_at (wblk m c t) (k0_pay3 (F := Ideal)) j).trans ?_
    exact congrArg (· + countTile m c t) (reset_count j)

/-- ODD POINTS: what the even point before left, plus this half's contribution. -/
theorem outs_second (c : Dev nD) (t : Fin cfg0.N) (h1 : t.val % 2 = 1) (j : S1x1x1.Idx) :
    (outsAt0 m c t.val t.isLt).1 j = (0 + lossTile m c (prevPt t)) + lossTile m c t
      ∧ (outsAt0 m c t.val t.isLt).2 j = (0 + countTile m c (prevPt t)) + countTile m c t := by
  have hB : ¬t.val % 2 = 0 := by omega
  have hp : (prevPt t).val % 2 = 0 := by show (t.val - 1) % 2 = 0; omega
  rw [outsAt0_B m c t hB]
  dsimp only
  constructor
  · refine (congrFun (loss_second (F := Ideal) c (grid0.coords t) (ms0_0 t) (hs0_0 t) (ms0_1 t) (hs0_1 t) (ms0_2 t) (hs0_2 t) (ms0_3 t) (hs0_3 t) (ms0_4 t) (hs0_4 t) (fun h => hB ((hcond0_0 t).mp h))
      (iblk m c 0 t) (iblk m c 1 t) (iblk m c 2 t) (outsAt0 m c (prevPt t).val (prevPt t).isLt).1
      (outsAt0 m c (prevPt t).val (prevPt t).isLt).2) j).trans ?_
    refine (loss_at (gblk m c t) (rblk m c t) (wblk m c t) _ j).trans ?_
    exact congrArg (· + lossTile m c t) (outs_first m c (prevPt t) hp j).1
  · refine (congrFun (count_second (F := Ideal) c (grid0.coords t) (ms0_0 t) (hs0_0 t) (ms0_1 t) (hs0_1 t) (ms0_2 t) (hs0_2 t) (ms0_3 t) (hs0_3 t) (ms0_4 t) (hs0_4 t) (fun h => hB ((hcond0_0 t).mp h))
      (iblk m c 0 t) (iblk m c 1 t) (iblk m c 2 t) (outsAt0 m c (prevPt t).val (prevPt t).isLt).1
      (outsAt0 m c (prevPt t).val (prevPt t).isLt).2) j).trans ?_
    refine (count_at (wblk m c t) _ j).trans ?_
    exact congrArg (· + countTile m c t) (outs_first m c (prevPt t) hp j).2

end Cert.KernelIdeal.Acc

end
-- ==== Proof.KRows.lean ====
/-
  The two arrays the region leaves, row by row.

  Point `t` of the 64-point grid is batch row `t / 2`, half `t % 2` of the anchor axis: an input block's element at
  anchor `a` is the array's element at anchor `a + 131072 · (t % 2)` of row `t / 2`. Only the odd points write an
  accumulator back, into element `t / 2` of its 32-element array, and what an odd point holds is the first half's
  contribution (from zero) plus the second half's: the row's loss, or its mask count, taken half by half. Every element
  is written by exactly one odd point, so the arrays end holding the rows' losses and the rows' counts.
-/
import proofs.«150206_j46858093200031_1_alg».proof.Proof.KFold

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.SmoothL1

variable (m : (ℓ : Loc nD τ sig) → Buf (Elt Ideal) ℓ) (ρ : Dev nD → PrngReg)

/-- The printed index maps, decided over the grid: the inputs' blocks sit at (row, half, 0), the outputs' at (row, 0, 0). -/
theorem idx_facts : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = t.val % 2 ∧ win0_1.index t (2 : Fin 3) = 0)
    ∧ (win0_2.index t (0 : Fin 3) = t.val / 2 ∧ win0_2.index t (1 : Fin 3) = t.val % 2 ∧ win0_2.index t (2 : Fin 3) = 0)
    ∧ (win0_3.index t (0 : Fin 3) = t.val / 2 ∧ win0_3.index t (1 : Fin 3) = 0 ∧ win0_3.index t (2 : Fin 3) = 0)
    ∧ (win0_4.index t (0 : Fin 3) = t.val / 2 ∧ win0_4.index t (1 : Fin 3) = 0 ∧ win0_4.index t (2 : Fin 3) = 0) :=
  (by decide +kernel : ∀ t : Fin grid0.N, _)

theorem lt64 (t : Fin cfg0.N) : t.val < 64 := lt_of_lt_of_eq t.isLt N_0

/-- A point's batch row and its half of the anchor axis. -/
def row (t : Fin cfg0.N) : Fin 32 := ⟨t.val / 2, by have := lt64 t; omega⟩
def half (t : Fin cfg0.N) : Fin 2 := ⟨t.val % 2, by omega⟩

/-- Window 0's block at a point, read at an element of ANY array of its shape: the array at that row, that half's anchor. -/
theorem pairs_read0 (A : Vec Ideal S32x262144x2 .f32) (t : Fin cfg0.N) (a : Fin 131072) (ch : Fin 2) :
    ((cfg0.win 0).blk t).view.read (Elt Ideal) A (ix3 (0 : Fin 1) a ch) = A (ix3 (row t) (anchor (half t) a) ch) := by
  obtain ⟨e0, e1, e2⟩ := (idx_facts t).1
  rw [View.read_apply]
  show A _ = A _
  refine congrArg A (funext fun b => Fin.ext ?_)
  match b with
  | ⟨0, _⟩ => show win0_0.index t (0 : Fin 3) * 1 + 1 * (0 : Fin 1).val = t.val / 2; rw [e0]; simp
  | ⟨1, _⟩ => show win0_0.index t (1 : Fin 3) * 131072 + 1 * a.val = a.val + 131072 * (t.val % 2); rw [e1]; omega
  | ⟨2, _⟩ => show win0_0.index t (2 : Fin 3) * 2 + 1 * (ch : Fin 2).val = (ch : Fin 2).val; rw [e2]; omega

/-- Window 1's block at a point, read at an element of ANY array of its shape: the array at that row, that half's anchor. -/
theorem pairs_read1 (A : Vec Ideal S32x262144x2 .f32) (t : Fin cfg0.N) (a : Fin 131072) (ch : Fin 2) :
    ((cfg0.win 1).blk t).view.read (Elt Ideal) A (ix3 (0 : Fin 1) a ch) = A (ix3 (row t) (anchor (half t) a) ch) := by
  obtain ⟨e0, e1, e2⟩ := (idx_facts t).2.1
  rw [View.read_apply]
  show A _ = A _
  refine congrArg A (funext fun b => Fin.ext ?_)
  match b with
  | ⟨0, _⟩ => show win0_1.index t (0 : Fin 3) * 1 + 1 * (0 : Fin 1).val = t.val / 2; rw [e0]; simp
  | ⟨1, _⟩ => show win0_1.index t (1 : Fin 3) * 131072 + 1 * a.val = a.val + 131072 * (t.val % 2); rw [e1]; omega
  | ⟨2, _⟩ => show win0_1.index t (2 : Fin 3) * 2 + 1 * (ch : Fin 2).val = (ch : Fin 2).val; rw [e2]; omega

/-- Window 2's block at a point, read at an element of ANY array of its shape: the array at that row, that half's anchor. -/
theorem column_read (A : Vec Ideal S32x262144x1 .f32) (t : Fin cfg0.N) (a : Fin 131072) :
    ((cfg0.win 2).blk t).view.read (Elt Ideal) A (ix3 (0 : Fin 1) a (0 : Fin 1)) = A (ix3 (row t) (anchor (half t) a) (0 : Fin 1)) := by
  obtain ⟨e0, e1, e2⟩ := (idx_facts t).2.2.1
  rw [View.read_apply]
  show A _ = A _
  refine congrArg A (funext fun b => Fin.ext ?_)
  match b with
  | ⟨0, _⟩ => show win0_2.index t (0 : Fin 3) * 1 + 1 * (0 : Fin 1).val = t.val / 2; rw [e0]; simp
  | ⟨1, _⟩ => show win0_2.index t (1 : Fin 3) * 131072 + 1 * a.val = a.val + 131072 * (t.val % 2); rw [e1]; omega
  | ⟨2, _⟩ => show win0_2.index t (2 : Fin 3) * 1 + 1 * ((0 : Fin 1) : Fin 1).val = ((0 : Fin 1) : Fin 1).val; rw [e2]; simp

/-- The three blocks of a point are those reads of the three arrays the region finds. -/
theorem gblk_apply (c : Dev nD) (t : Fin cfg0.N) (a : Fin 131072) (ch : Fin 2) :
    gblk m c t (ix3 (0 : Fin 1) a ch) = garr m c (ix3 (row t) (anchor (half t) a) ch) := pairs_read0 (garr m c) t a ch
theorem rblk_apply (c : Dev nD) (t : Fin cfg0.N) (a : Fin 131072) (ch : Fin 2) :
    rblk m c t (ix3 (0 : Fin 1) a ch) = rarr m c (ix3 (row t) (anchor (half t) a) ch) := pairs_read1 (rarr m c) t a ch
theorem wblk_apply (c : Dev nD) (t : Fin cfg0.N) (a : Fin 131072) :
    wblk m c t (ix3 (0 : Fin 1) a (0 : Fin 1)) = warr m c (ix3 (row t) (anchor (half t) a) (0 : Fin 1)) := column_read (warr m c) t a

/-- A point's two contributions in terms of the arrays. -/
theorem lossTile_eq (c : Dev nD) (t : Fin cfg0.N) :
    lossTile m c t = ∑ a : Fin 131072, ∑ ch : Fin 2,
      term (garr m c (ix3 (row t) (anchor (half t) a) ch)) (rarr m c (ix3 (row t) (anchor (half t) a) ch))
        (warr m c (ix3 (row t) (anchor (half t) a) (0 : Fin 1))) := by
  unfold lossTile
  refine Finset.sum_congr rfl fun a _ => Finset.sum_congr rfl fun ch _ => ?_
  rw [gblk_apply m c t a ch, rblk_apply m c t a ch, wblk_apply m c t a]

theorem countTile_eq (c : Dev nD) (t : Fin cfg0.N) :
    countTile m c t = ∑ a : Fin 131072, warr m c (ix3 (row t) (anchor (half t) a) (0 : Fin 1)) := by
  unfold countTile
  exact Finset.sum_congr rfl fun a _ => wblk_apply m c t a

/-- At an odd point the two halves seen so far are the point's row. -/
theorem row_tiles (c : Dev nD) (t : Fin cfg0.N) (h1 : t.val % 2 = 1) :
    (0 + lossTile m c (prevPt t)) + lossTile m c t = rowLoss (garr m c) (rarr m c) (warr m c) (row t)
      ∧ (0 + countTile m c (prevPt t)) + countTile m c t = rowCount (warr m c) (row t) := by
  have r1 : row (prevPt t) = row t := Fin.ext (by show (t.val - 1) / 2 = t.val / 2; omega)
  have s0 : half (prevPt t) = 0 := Fin.ext (by show (t.val - 1) % 2 = 0; omega)
  have s1 : half t = 1 := Fin.ext (by show t.val % 2 = 1; exact h1)
  rw [lossTile_eq, lossTile_eq, countTile_eq, countTile_eq, r1, s0, s1]
  unfold rowLoss rowCount
  exact ⟨by with_reducible rfl, by with_reducible rfl⟩

/-- The two arrays the region leaves: each row's loss, each row's mask count. -/
def lossRows (c : Dev nD) : Vec Ideal S32x1x1 .f32 := fun i => rowLoss (garr m c) (rarr m c) (warr m c) ⟨(i 0).val, (i 0).isLt⟩
def countRows (c : Dev nD) : Vec Ideal S32x1x1 .f32 := fun i => rowCount (warr m c) ⟨(i 0).val, (i 0).isLt⟩

/-- Output 3's block at a point, read at its one element of ANY 32-element array: the array at the point's row. -/
theorem acc_read3 (A : Vec Ideal S32x1x1 .f32) (t : Fin cfg0.N) (y : S1x1x1.Idx) :
    ((cfg0.win 3).blk t).view.read (Elt Ideal) A y = A (ix3 (row t) (0 : Fin 1) (0 : Fin 1)) := by
  obtain ⟨e0, e1, e2⟩ := (idx_facts t).2.2.2.1
  obtain rfl := one_idx y
  rw [View.read_apply]
  show A _ = A _
  refine congrArg A (funext fun b => Fin.ext ?_)
  match b with
  | ⟨0, _⟩ => show win0_3.index t (0 : Fin 3) * 1 + 1 * (0 : Fin 1).val = t.val / 2; rw [e0]; simp
  | ⟨1, _⟩ => show win0_3.index t (1 : Fin 3) * 1 + 1 * (0 : Fin 1).val = (0 : Fin 1).val; rw [e1]; simp
  | ⟨2, _⟩ => show win0_3.index t (2 : Fin 3) * 1 + 1 * (0 : Fin 1).val = (0 : Fin 1).val; rw [e2]; simp

/-- Output 4's block at a point, read at its one element of ANY 32-element array: the array at the point's row. -/
theorem acc_read4 (A : Vec Ideal S32x1x1 .f32) (t : Fin cfg0.N) (y : S1x1x1.Idx) :
    ((cfg0.win 4).blk t).view.read (Elt Ideal) A y = A (ix3 (row t) (0 : Fin 1) (0 : Fin 1)) := by
  obtain ⟨e0, e1, e2⟩ := (idx_facts t).2.2.2.2
  obtain rfl := one_idx y
  rw [View.read_apply]
  show A _ = A _
  refine congrArg A (funext fun b => Fin.ext ?_)
  match b with
  | ⟨0, _⟩ => show win0_4.index t (0 : Fin 3) * 1 + 1 * (0 : Fin 1).val = t.val / 2; rw [e0]; simp
  | ⟨1, _⟩ => show win0_4.index t (1 : Fin 3) * 1 + 1 * (0 : Fin 1).val = (0 : Fin 1).val; rw [e1]; simp
  | ⟨2, _⟩ => show win0_4.index t (2 : Fin 3) * 1 + 1 * (0 : Fin 1).val = (0 : Fin 1).val; rw [e2]; simp

/-- The two arrays read at a row's element. -/
theorem lossRows_apply (c : Dev nD) (b : Fin 32) :
    lossRows m c (ix3 b (0 : Fin 1) (0 : Fin 1)) = rowLoss (garr m c) (rarr m c) (warr m c) b := rfl
theorem countRows_apply (c : Dev nD) (b : Fin 32) :
    countRows m c (ix3 b (0 : Fin 1) (0 : Fin 1)) = rowCount (warr m c) b := rfl

/-- WHAT AN ODD POINT WRITES BACK is its row's element of the loss array. -/
theorem loss_flushed (c : Dev nD) (t : Fin cfg0.N) (hf : (cfg0.win 3).flush t = true) :
    (dats m 0 c).flushed 3 t = ((cfg0.win 3).blk t).view.read (Elt Ideal) (lossRows m c) := by
  have h1 : t.val % 2 = 1 := (flush0_3 t).mp hf
  show (cfg0.win 3).cut (grid0.coords t) ((dats m 0 c).after 3 t) = _
  rw [after0_3]
  funext y
  have ho : (outsAt0 m c t.val t.isLt).1 y = rowLoss (garr m c) (rarr m c) (warr m c) (row t) :=
    ((outs_second m c t h1 y).1).trans (row_tiles m c t h1).1
  rw [acc_read3 (lossRows m c) t y, lossRows_apply]
  revert ho
  generalize (outsAt0 m c t.val t.isLt).1 = o
  intro ho
  exact ho

/-- … and its row's element of the mask-count array. -/
theorem count_flushed (c : Dev nD) (t : Fin cfg0.N) (hf : (cfg0.win 4).flush t = true) :
    (dats m 0 c).flushed 4 t = ((cfg0.win 4).blk t).view.read (Elt Ideal) (countRows m c) := by
  have h1 : t.val % 2 = 1 := (flush0_4 t).mp hf
  show (cfg0.win 4).cut (grid0.coords t) ((dats m 0 c).after 4 t) = _
  rw [after0_4]
  funext y
  have ho : (outsAt0 m c t.val t.isLt).2 y = rowCount (warr m c) (row t) :=
    ((outs_second m c t h1 y).2).trans (row_tiles m c t h1).2
  rw [acc_read4 (countRows m c) t y, countRows_apply]
  revert ho
  generalize (outsAt0 m c t.val t.isLt).2 = o
  intro ho
  exact ho

end Cert.KernelIdeal.Acc

end
-- ==== Proof.KRun.lean ====
/-
  What the kernel's program returns.

  Every element of the two 32-element arrays is written back by exactly one point, the odd point of its row, so after
  the region the loss array holds each row's loss and the count array each row's mask count. The host lines after the
  region add each array up from zero, clamp the count below by one, divide, and multiply by one: the program's result
  is that quotient of the two arrays, and its argument arrays are as launched.
-/
import proofs.«150206_j46858093200031_1_alg».proof.Proof.KRows
import Idealize.ShloMosaic.Lib.StableHlo.Run

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Acc

open Cert.KernelIdeal Cert.KernelIdeal.Gen Cert.SmoothL1

variable (m : (ℓ : Loc nD τ sig) → Buf (Elt Ideal) ℓ) (ρ : Dev nD → PrngReg)

/-- An element of output 3's array is in point `t`'s block iff each coordinate is in the block's range on its axis. -/
theorem mem_blk3 (t : Fin cfg0.N) (i : S32x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v15_0).slice (win0_3.rect t)).set ↔ _
  rw [View.set_slice_whole, Rect.mem_set_unit]
  exact Iff.rfl

/-- Every element of output 3's array is written back by the odd point of its row. -/
theorem cover3 (i : S32x1x1.Idx) : ∃ t : Fin cfg0.N, (cfg0.win 3).flush t = true ∧ i ∈ ((cfg0.win 3).blk t).view.set := by
  have hi0 : (i 0).val < 32 := (i 0).isLt
  have hi1 : (i 1).val < 1 := (i 1).isLt
  have hi2 : (i 2).val < 1 := (i 2).isLt
  have hlt : 2 * (i 0).val + 1 < cfg0.N := by rw [show cfg0.N = 64 from N_0]; omega
  obtain ⟨e0, e1, e2⟩ := (idx_facts ⟨2 * (i 0).val + 1, hlt⟩).2.2.2.1
  have d0 : (2 * (i 0).val + 1) / 2 = (i 0).val := by omega
  refine ⟨⟨2 * (i 0).val + 1, hlt⟩, (flush0_3 _).mpr (by show (2 * (i 0).val + 1) % 2 = 1; omega), ?_⟩
  rw [mem_blk3]
  intro a
  match a with
  | ⟨0, _⟩ =>
    show win0_3.index ⟨2 * (i 0).val + 1, hlt⟩ (0 : Fin 3) * 1 ≤ (i 0).val ∧ (i 0).val < win0_3.index ⟨2 * (i 0).val + 1, hlt⟩ (0 : Fin 3) * 1 + 1
    rw [e0]; show (2 * (i 0).val + 1) / 2 * 1 ≤ (i 0).val ∧ (i 0).val < (2 * (i 0).val + 1) / 2 * 1 + 1; omega
  | ⟨1, _⟩ =>
    show win0_3.index ⟨2 * (i 0).val + 1, hlt⟩ (1 : Fin 3) * 1 ≤ (i 1).val ∧ (i 1).val < win0_3.index ⟨2 * (i 0).val + 1, hlt⟩ (1 : Fin 3) * 1 + 1
    rw [e1]; omega
  | ⟨2, _⟩ =>
    show win0_3.index ⟨2 * (i 0).val + 1, hlt⟩ (2 : Fin 3) * 1 ≤ (i 2).val ∧ (i 2).val < win0_3.index ⟨2 * (i 0).val + 1, hlt⟩ (2 : Fin 3) * 1 + 1
    rw [e2]; omega

/-- An element of output 4's array is in point `t`'s block iff each coordinate is in the block's range on its axis. -/
theorem mem_blk4 (t : Fin cfg0.N) (i : S32x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v15_1).slice (win0_4.rect t)).set ↔ _
  rw [View.set_slice_whole, Rect.mem_set_unit]
  exact Iff.rfl

/-- Every element of output 4's array is written back by the odd point of its row. -/
theorem cover4 (i : S32x1x1.Idx) : ∃ t : Fin cfg0.N, (cfg0.win 4).flush t = true ∧ i ∈ ((cfg0.win 4).blk t).view.set := by
  have hi0 : (i 0).val < 32 := (i 0).isLt
  have hi1 : (i 1).val < 1 := (i 1).isLt
  have hi2 : (i 2).val < 1 := (i 2).isLt
  have hlt : 2 * (i 0).val + 1 < cfg0.N := by rw [show cfg0.N = 64 from N_0]; omega
  obtain ⟨e0, e1, e2⟩ := (idx_facts ⟨2 * (i 0).val + 1, hlt⟩).2.2.2.2
  have d0 : (2 * (i 0).val + 1) / 2 = (i 0).val := by omega
  refine ⟨⟨2 * (i 0).val + 1, hlt⟩, (flush0_4 _).mpr (by show (2 * (i 0).val + 1) % 2 = 1; omega), ?_⟩
  rw [mem_blk4]
  intro a
  match a with
  | ⟨0, _⟩ =>
    show win0_4.index ⟨2 * (i 0).val + 1, hlt⟩ (0 : Fin 3) * 1 ≤ (i 0).val ∧ (i 0).val < win0_4.index ⟨2 * (i 0).val + 1, hlt⟩ (0 : Fin 3) * 1 + 1
    rw [e0]; show (2 * (i 0).val + 1) / 2 * 1 ≤ (i 0).val ∧ (i 0).val < (2 * (i 0).val + 1) / 2 * 1 + 1; omega
  | ⟨1, _⟩ =>
    show win0_4.index ⟨2 * (i 0).val + 1, hlt⟩ (1 : Fin 3) * 1 ≤ (i 1).val ∧ (i 1).val < win0_4.index ⟨2 * (i 0).val + 1, hlt⟩ (1 : Fin 3) * 1 + 1
    rw [e1]; omega
  | ⟨2, _⟩ =>
    show win0_4.index ⟨2 * (i 0).val + 1, hlt⟩ (2 : Fin 3) * 1 ≤ (i 2).val ∧ (i 2).val < win0_4.index ⟨2 * (i 0).val + 1, hlt⟩ (2 : Fin 3) * 1 + 1
    rw [e2]; omega

/-- THE TWO ARRAYS after the region: the rows' losses, the rows' mask counts. -/
theorem loss_final (c : Dev nD) : (dats m 0 c).arrAt 3 cfg0.N = lossRows m c :=
  (dats m 0 c).arrAt_eq_of_cover 3 (lossRows m c) (loss_flushed m c) cover3
theorem count_final (c : Dev nD) : (dats m 0 c).arrAt 4 cfg0.N = countRows m c :=
  (dats m 0 c).arrAt_eq_of_cover 4 (countRows m c) (count_flushed m c) cover4

/-- The host lines after the region: both arrays added up from zero, the count clamped below by one, the quotient,
    times one. -/
def quotient (L N : Vec Ideal S32x1x1 .f32) : Vec Ideal S_ .f32 :=
  mulf (Host.divf (Host.reduceAdd L (constant (F := Ideal) S_ .f32 0x00000000#32) reducesTo_S32x1x1_S_d0_1_2 h_S_)
      (maximumf (constant (F := Ideal) S_ .f32 0x3F800000#32)
        (Host.reduceAdd N (constant (F := Ideal) S_ .f32 0x00000000#32) reducesTo_S32x1x1_S_d0_1_2 h_S_)))
    (constant (F := Ideal) S_ .f32 0x3F800000#32)

/-- What the result buffer holds after the host lines that follow the region. -/
theorem tail_eq (c : Dev nD) :
    Pipeline.afterTail₀ cfgs (dats m) 0 (V0 m) [hostOps1] c main_v20 = quotient (lossRows m c) (countRows m c) := by
  have h3 : Pipeline.withArrays (cfgs 0).spec c (V0 m c) (fun w => (dats m 0 c).arrAt w (cfgs 0).N) (Proc.devRef .tc main_v15_0)
      = lossRows m c := (Pipeline.withArrays_arr spec0 launch0.win.arr_inj c _ _ 3).trans (loss_final m c)
  have h4 : Pipeline.withArrays (cfgs 0).spec c (V0 m c) (fun w => (dats m 0 c).arrAt w (cfgs 0).N) (Proc.devRef .tc main_v15_1)
      = countRows m c := (Pipeline.withArrays_arr spec0 launch0.win.arr_inj c _ _ 4).trans (count_final m c)
  unfold Pipeline.afterTail₀
  show StableHlo.after hostOps1 _ (Proc.devRef .tc main_v20) = _
  after_results
  rw [h3, h4]
  unfold quotient
  rfl

/-- THE RUN, READ: every weakly fair execution of the kernel's program terminates with its result at the quotient of
    the two arrays and its arguments as launched. -/
theorem run : θ_run defs (onTc (τ := τ) (main (F := Ideal))) ⟨m, fun _ => 0, ρ⟩ fun r => ∀ c : Dev nD,
      r.2.mem ((c.tc : Thread nD τ).loc main_v20) = quotient (lossRows m c) (countRows m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc

end
-- ==== Proof.KHost.lean ====
/-
  The host lines of the kernel's program before the region, read against the reference's stages.

  Before it launches the region the kernel's program prepares three arrays with exactly the reference's own host
  operations, in another order: the gathered pairs (the table reshaped and transposed, the index column converted,
  clipped and gathered through), the target pairs (a slice of the target) and the mask as a column (the state column
  compared with one, converted, and given a unit axis). Stretch by stretch — the table and index, the clip, the column,
  the three parts of the gather, the slices and the mask — each buffer that a later stretch reads holds the value the
  reference's stage function of the same name gives for the two arguments. So the region finds, in its three input
  arrays, the reference's gathered pairs, target pairs and mask column.
-/
import proofs.«150206_j46858093200031_1_alg».proof.Proof.Gen.KernelIdeal.Frame
import proofs.«150206_j46858093200031_1_alg».proof.Proof.RefRead
import Idealize.ShloMosaic.Lib.StableHlo.Run
import Idealize.ShloMosaic.Lib.Pipeline.Frame

noncomputable section

namespace Cert.KernelIdeal.Host

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

/-- The gather's three parts: the wrapped index, the in-range flag, the gather and select. -/
abbrev opsWrap : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S32x262144x1, .i32⟩) (broadcastInDim S32x262144x1 ![] bcast_S_S32x262144x1),
    StableHlo.TRef.binary (.of main_v6 : StableHlo.TRef sig ⟨S32x262144x1, .i32⟩) (.of main_call1_v0 : StableHlo.TRef sig ⟨S32x262144x1, .i32⟩) (.of main_call1_v1 : StableHlo.TRef sig ⟨S32x262144x1, .i1⟩) (cmpi .slt),
    StableHlo.TRef.nullary (.of main_call1_c_0 : StableHlo.TRef sig ⟨S_, .i32⟩) (constantI S_ 32 131072#32),
    StableHlo.TRef.unary (.of main_call1_c_0 : StableHlo.TRef sig ⟨S_, .i32⟩) (.of main_call1_v2 : StableHlo.TRef sig ⟨S32x262144x1, .i32⟩) (broadcastInDim S32x262144x1 ![] bcast_S_S32x262144x1),
    StableHlo.TRef.binary (.of main_v6 : StableHlo.TRef sig ⟨S32x262144x1, .i32⟩) (.of main_call1_v2 : StableHlo.TRef sig ⟨S32x262144x1, .i32⟩) (.of main_call1_v3 : StableHlo.TRef sig ⟨S32x262144x1, .i32⟩) addi,
    StableHlo.TRef.ternary (.of main_call1_v1 : StableHlo.TRef sig ⟨S32x262144x1, .i1⟩) (.of main_call1_v3 : StableHlo.TRef sig ⟨S32x262144x1, .i32⟩) (.of main_v6 : StableHlo.TRef sig ⟨S32x262144x1, .i32⟩) (.of main_call1_v4 : StableHlo.TRef sig ⟨S32x262144x1, .i32⟩) select ]
abbrev opsInRange : List (HloOp τ sig (Elt F)) :=
  [ StableHlo.TRef.nullary (.of main_call1_c_1 : StableHlo.TRef sig ⟨S1, .i32⟩) (constantI S1 32 131071#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v5 : StableHlo.TRef sig ⟨S32x262144x1, .i32⟩) (broadcastInDim S32x262144x1 ![] bcast_S_S32x262144x1),
    StableHlo.TRef.binary (.of main_call1_v4 : StableHlo.TRef sig ⟨S32x262144x1, .i32⟩) (.of main_call1_v5 : StableHlo.TRef sig ⟨S32x262144x1, .i32⟩) (.of main_call1_v6 : StableHlo.TRef sig ⟨S32x262144x1, .i1⟩) (cmpi .sge),
    StableHlo.TRef.unary (.of main_call1_c_1 : StableHlo.TRef sig ⟨S1, .i32⟩) (.of main_call1_v7 : StableHlo.TRef sig ⟨S1x1x1, .i32⟩) (broadcastInDim S1x1x1 ![2] bcast_S1_S1x1x1_2),
    StableHlo.TRef.unary (.of main_call1_v7 : StableHlo.TRef sig ⟨S1x1x1, .i32⟩) (.of main_call1_v8 : StableHlo.TRef sig ⟨S32x262144x1, .i32⟩) (broadcastInDim S32x262144x1 ![0, 1, 2] bcast_S1x1x1_S32x262144x1_0_1_2),
    StableHlo.TRef.binary (.of main_call1_v4 : StableHlo.TRef sig ⟨S32x262144x1, .i32⟩) (.of main_call1_v8 : StableHlo.TRef sig ⟨S32x262144x1, .i32⟩) (.of main_call1_v9 : StableHlo.TRef sig ⟨S32x262144x1, .i1⟩) (cmpi .sle),
    StableHlo.TRef.binary (.of main_call1_v6 : StableHlo.TRef sig ⟨S32x262144x1, .i1⟩) (.of main_call1_v9 : StableHlo.TRef sig ⟨S32x262144x1, .i1⟩) (.of main_call1_v10 : StableHlo.TRef sig ⟨S32x262144x1, .i1⟩) andi,
    StableHlo.TRef.nullary (.of main_call1_c_3 : StableHlo.TRef sig ⟨S_, .i1⟩) (constantI S_ 1 1#1),
    StableHlo.TRef.binary (.of main_call1_v10 : StableHlo.TRef sig ⟨S32x262144x1, .i1⟩) (.of main_call1_c_3 : StableHlo.TRef sig ⟨S_, .i1⟩) (.of main_call1_v11 : StableHlo.TRef sig ⟨S32x262144, .i1⟩) (fun x v => Host.reduce IntOp.andi x v reducesTo_S32x262144x1_S32x262144_d2 h_S_) ]
abbrev opsGather : List (HloOp τ sig (Elt F)) :=
  [ StableHlo.TRef.binary (.of main_v1 : StableHlo.TRef sig ⟨S32x131072x2, .f32⟩) (.of main_call1_v4 : StableHlo.TRef sig ⟨S32x262144x1, .i32⟩) (.of main_call1_v12 : StableHlo.TRef sig ⟨S32x262144x2, .f32⟩) (fun x i => Host.gather gather_S32x131072x2_S32x262144x1_S32x262144x2_2_1_0_0_1_2_112 x i),
    StableHlo.TRef.unary (.of main_call1_v11 : StableHlo.TRef sig ⟨S32x262144, .i1⟩) (.of main_call1_v13 : StableHlo.TRef sig ⟨S32x262144x2, .i1⟩) (broadcastInDim S32x262144x2 ![0, 1] bcast_S32x262144_S32x262144x2_0_1),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S32x262144x2, .f32⟩) (broadcastInDim S32x262144x2 ![] bcast_S_S32x262144x2),
    StableHlo.TRef.ternary (.of main_call1_v13 : StableHlo.TRef sig ⟨S32x262144x2, .i1⟩) (.of main_call1_v12 : StableHlo.TRef sig ⟨S32x262144x2, .f32⟩) (.of main_call1_v14 : StableHlo.TRef sig ⟨S32x262144x2, .f32⟩) (.of main_v7 : StableHlo.TRef sig ⟨S32x262144x2, .f32⟩) select ]

theorem gather_split : (hostOps0_3 : List (HloOp τ sig (Elt F))) = opsWrap ++ (opsInRange ++ opsGather) := rfl

/-- One stretch's buffers read back: the fold over the stretch, then the calls' transports. -/
local macro "read_stretch" : tactic =>
  `(tactic| (after_results_simp <;> (try simp only [TRef.ofBuf, TRef.toBuf, cast_eq])))

variable (x0 : (⟨S32x262144, .f32⟩ : BufTy).Contents (Elt F)) (x1 : (⟨S32x262144x4, .f32⟩ : BufTy).Contents (Elt F))

def AfterTable (W : Valuation τ sig (Elt F)) : Prop :=
  W (Proc.devRef .tc main_v1) = val_main_v9 (F := F) x0 ∧ W (Proc.devRef .tc main_v4) = val_main_v4 (F := F) x1
    ∧ W (Proc.devRef .tc main_c) = val_main_c (F := F) ∧ W (Proc.devRef .tc main_c_0) = val_main_c_0 (F := F) ∧ W (Proc.devRef .tc main_arg1) = x1
def AfterClip (W : Valuation τ sig (Elt F)) : Prop :=
  W (Proc.devRef .tc main_v5) = val_main_v10 (F := F) x1 ∧ W (Proc.devRef .tc main_v1) = val_main_v9 (F := F) x0 ∧ W (Proc.devRef .tc main_arg1) = x1
def AfterColumn (W : Valuation τ sig (Elt F)) : Prop :=
  W (Proc.devRef .tc main_v6) = val_main_v11 (F := F) x1 ∧ W (Proc.devRef .tc main_v1) = val_main_v9 (F := F) x0 ∧ W (Proc.devRef .tc main_arg1) = x1
def AfterWrap (W : Valuation τ sig (Elt F)) : Prop :=
  W (Proc.devRef .tc main_call1_v4) = val_main_call1_v4 (F := F) x1 ∧ W (Proc.devRef .tc main_v1) = val_main_v9 (F := F) x0 ∧ W (Proc.devRef .tc main_arg1) = x1
def AfterInRange (W : Valuation τ sig (Elt F)) : Prop :=
  W (Proc.devRef .tc main_call1_v11) = val_main_call1_v11 (F := F) x1 ∧ W (Proc.devRef .tc main_call1_v4) = val_main_call1_v4 (F := F) x1
    ∧ W (Proc.devRef .tc main_v1) = val_main_v9 (F := F) x0 ∧ W (Proc.devRef .tc main_arg1) = x1
def AfterGather (W : Valuation τ sig (Elt F)) : Prop :=
  W (Proc.devRef .tc main_v7) = val_main_v12 (F := F) x0 x1 ∧ W (Proc.devRef .tc main_arg1) = x1
/-- What the region finds: the gathered pairs, the target pairs, the mask column. -/
def AtEntry (W : Valuation τ sig (Elt F)) : Prop :=
  W (Proc.devRef .tc main_v7) = val_main_v12 (F := F) x0 x1 ∧ W (Proc.devRef .tc main_v8) = val_main_v1 (F := F) x1
    ∧ W (Proc.devRef .tc main_v14) = val_main_v24 (F := F) x1

theorem table_stage (V : Valuation τ sig (Elt F)) (h0 : V (Proc.devRef .tc main_arg0) = x0) (h1 : V (Proc.devRef .tc main_arg1) = x1) :
    AfterTable x0 x1 (after hostOps0 V) := by
  subst h0 h1
  refine ⟨?_, ?_, ?_, ?_, ?_⟩ <;> (read_stretch <;> rfl)

theorem clip_stage (W : Valuation τ sig (Elt F)) (h : AfterTable x0 x1 W) : AfterClip x0 x1 (after hostOps0_1 W) := by
  obtain ⟨h9, h4, hc, hc0, ha⟩ := h
  refine ⟨?_, ?_, ?_⟩
  · read_stretch; rw [h4, hc, hc0]; rfl
  · read_stretch; exact h9
  · read_stretch; exact ha

theorem column_stage (W : Valuation τ sig (Elt F)) (h : AfterClip x0 x1 W) : AfterColumn x0 x1 (after hostOps0_2 W) := by
  obtain ⟨h10, h9, ha⟩ := h
  refine ⟨?_, ?_, ?_⟩
  · read_stretch; rw [h10]; rfl
  · read_stretch; exact h9
  · read_stretch; exact ha

theorem wrap_stage (W : Valuation τ sig (Elt F)) (h : AfterColumn x0 x1 W) : AfterWrap x0 x1 (after opsWrap W) := by
  obtain ⟨h11, h9, ha⟩ := h
  refine ⟨?_, ?_, ?_⟩
  · read_stretch; rw [h11]; rfl
  · read_stretch; exact h9
  · read_stretch; exact ha

theorem inRange_stage (W : Valuation τ sig (Elt F)) (h : AfterWrap x0 x1 W) : AfterInRange x0 x1 (after opsInRange W) := by
  obtain ⟨h4, h9, ha⟩ := h
  refine ⟨?_, ?_, ?_, ?_⟩
  · read_stretch; rw [h4]; rfl
  · read_stretch; exact h4
  · read_stretch; exact h9
  · read_stretch; exact ha

theorem gather_stage (W : Valuation τ sig (Elt F)) (h : AfterInRange x0 x1 W) : AfterGather x0 x1 (after opsGather W) := by
  obtain ⟨hf, h4, h9, ha⟩ := h
  refine ⟨?_, ?_⟩
  · read_stretch; rw [hf, h4, h9]; rfl
  · read_stretch; exact ha

theorem mask_stage (W : Valuation τ sig (Elt F)) (h : AfterGather x0 x1 W) : AtEntry x0 x1 (after hostOps0_4 W) := by
  obtain ⟨h12, ha⟩ := h
  refine ⟨?_, ?_, ?_⟩
  · read_stretch; exact h12
  · read_stretch; rw [ha]; rfl
  · read_stretch; rw [ha]; rfl

/-- THE REGION'S INPUT ARRAYS are the reference's gathered pairs, target pairs and mask column of the arguments. -/
theorem at_entry (m : (ℓ : Loc nD τ sig) → Buf (Elt F) ℓ) (c : Dev nD) :
    AtEntry (m ((c : Thread nD τ).loc main_arg0)) (m ((c : Thread nD τ).loc main_arg1)) (V0 m c) := by
  show AtEntry _ _ (after (List.flatten [hostOps0, hostOps0_1, hostOps0_2, hostOps0_3, hostOps0_4]) (fun b => m (c, b)))
  simp only [List.flatten_cons, List.flatten_nil, List.append_nil]
  rw [gather_split, StableHlo.after_append, StableHlo.after_append, StableHlo.after_append, StableHlo.after_append,
    StableHlo.after_append, StableHlo.after_append]
  exact mask_stage _ _ _ (gather_stage _ _ _ (inRange_stage _ _ _ (wrap_stage _ _ _ (column_stage _ _ _ (clip_stage _ _ _
    (table_stage _ _ _ rfl rfl))))))

end Cert.KernelIdeal.Host

end
-- ==== Proof.RefBridge.lean ====
/-
  The reference's two sums, element by element.

  The reference multiplies, at each (batch row, anchor, channel), the Huber loss of "gathered minus target" by the
  mask of that row and anchor, and adds everything up from zero; it adds up the flat mask from zero as well. Read at an
  element through its stage functions, the product it sums is the masked term of the gathered pair, the target pair
  and the mask column at the same row and anchor; and the mask column repeats the flat mask. So its first sum is zero
  plus the total of the masked terms and its second is zero plus the total of the flat mask.
-/
import proofs.«150206_j46858093200031_1_alg».proof.Proof.RefRead
import proofs.«150206_j46858093200031_1_alg».proof.Proof.SmoothL1

noncomputable section

open scoped BigOperators
open Idealize.ShloMosaic Idealize.ShloMosaic.ValueIdx

namespace Cert.ReferenceIdeal.Bridge

open Cert.ReferenceIdeal Cert.ReferenceIdeal.ReadP Cert.SmoothL1

variable (x0 : (⟨S32x262144, .f32⟩ : BufTy).Contents (Elt Ideal)) (x1 : (⟨S32x262144x4, .f32⟩ : BufTy).Contents (Elt Ideal))

/-- The index the mask's broadcast reads under a pair index is the mask column's index there. -/
theorem column_idx (i : S32x262144x2.Idx) : idx_main_v25 i = col i := by
  funext a
  match a with
  | ⟨0, _⟩ => rfl
  | ⟨1, _⟩ => rfl
  | ⟨2, _⟩ => rfl

/-- ONE SUMMED ELEMENT is the masked Huber term of the gathered pair, the target pair and the mask column. -/
theorem masked_term (i : S32x262144x2.Idx) :
    val_main_v26 (F := Ideal) x0 x1 i
      = term (val_main_v12 (F := Ideal) x0 x1 i) (val_main_v1 (F := Ideal) x1 i) (val_main_v24 (F := Ideal) x1 (col i)) := by
  rw [val_main_v26_apply, val_main_v25_apply, column_idx, val_main_v22_apply, val_main_v16_apply, val_main_v15_apply,
    val_main_v19_apply, val_main_v18_apply, val_main_v17_apply, val_main_v21_apply, val_main_v20_apply,
    val_main_v14_apply, val_main_v13_apply]
  rfl

/-- The mask column repeats the flat mask. -/
theorem mask_column (b : Fin 32) (k : Fin 262144) :
    val_main_v24 (F := Ideal) x1 (ix3 b k (0 : Fin 1)) = val_main_v23 (F := Ideal) x1 (ix2 b k) := by
  rw [val_main_v24_apply]
  refine congrArg (val_main_v23 (F := Ideal) x1) (funext fun a => ?_)
  match a with
  | ⟨0, _⟩ => rfl
  | ⟨1, _⟩ => rfl

/-- The reference's loss sum: zero plus the total of the masked terms. -/
theorem loss_sum (i : S_.Idx) :
    val_main_v27 (F := Ideal) x0 x1 i
      = Ideal.ofBits .f32 0x00000000#32
        + ∑ j, term (val_main_v12 (F := Ideal) x0 x1 j) (val_main_v1 (F := Ideal) x1 j) (val_main_v24 (F := Ideal) x1 (col j)) := by
  rw [val_main_v27_apply]
  exact congrArg (Ideal.ofBits .f32 0x00000000#32 + ·) (Finset.sum_congr rfl fun j _ => masked_term x0 x1 j)

/-- The reference's mask count: zero plus the total of the flat mask. -/
theorem count_sum (i : S_.Idx) :
    val_main_v28 (F := Ideal) x1 i = Ideal.ofBits .f32 0x00000000#32 + ∑ j, val_main_v23 (F := Ideal) x1 j := by
  rw [val_main_v28_apply]
  rfl

end Cert.ReferenceIdeal.Bridge

end
-- ==== Proof.Bridge.lean ====
/-
  The kernel's result is the reference's.

  The region's three input arrays are the reference's gathered pairs, target pairs and mask column of the arguments.
  So the loss array's total, added up from zero row by row, is zero plus the total of the masked Huber terms — the
  reference's first sum, by regrouping a finite sum — and the count array's total is zero plus the total of the flat
  mask, the reference's second sum. The two programs then apply the same clamp, quotient and product to equal values.
-/
import proofs.«150206_j46858093200031_1_alg».proof.Proof.KRun
import proofs.«150206_j46858093200031_1_alg».proof.Proof.KHost
import proofs.«150206_j46858093200031_1_alg».proof.Proof.RefBridge

noncomputable section

open scoped BigOperators
open Idealize.ShloMosaic Idealize.ShloMosaic.TcCoe Idealize.SL.Sem Idealize.ShloMosaic.ValueIdx

namespace Cert.Bridge

open Cert.KernelIdeal Cert.KernelIdeal.Gen Cert.KernelIdeal.Acc Cert.SmoothL1
open Cert.ReferenceIdeal.ReadP

variable (m : (ℓ : Loc nD τ sig) → Buf (Elt Ideal) ℓ)

/-- The two arrays at any element are their row's quantity. -/
theorem lossRows_at (c : Dev nD) (j : (⟨3, ![32, 1, 1]⟩ : Shape).Idx) :
    lossRows m c j = rowLoss (garr m c) (rarr m c) (warr m c) (j 0) := rfl
theorem countRows_at (c : Dev nD) (j : (⟨3, ![32, 1, 1]⟩ : Shape).Idx) :
    countRows m c j = rowCount (warr m c) (j 0) := rfl

/-- A host sum over all three axes of a 32 × 1 × 1 array from zero: zero plus the total. -/
theorem total_from_zero (A : Vec Ideal S32x1x1 .f32) (i : S_.Idx) :
    Host.reduceAdd A (constant (F := Ideal) S_ .f32 0x00000000#32) reducesTo_S32x1x1_S_d0_1_2 h_S_ i
      = Ideal.ofBits .f32 0x00000000#32 + ∑ j, A j := by
  simp only [Host.reduceAdd, Ideal.hostReduceAdd_def]
  exact Ideal.hostReduceAdd_total reducesTo_S32x1x1_S_d0_1_2 (fun b => b.elim0) A _ i

/-- THE KERNEL'S RESULT is the reference's last stage of the same two arguments. -/
theorem value_eq (c : Dev nD) :
    quotient (lossRows m c) (countRows m c)
      = val_main_v31 (F := Ideal) (m ((c : Thread nD τ).loc main_arg0)) (m ((c : Thread nD τ).loc main_arg1)) := by
  obtain ⟨hG, hR, hW⟩ := Cert.KernelIdeal.Host.at_entry m c
  have hG' : garr m c = val_main_v12 (F := Ideal) (m ((c : Thread nD τ).loc main_arg0)) (m ((c : Thread nD τ).loc main_arg1)) := hG
  have hR' : rarr m c = val_main_v1 (F := Ideal) (m ((c : Thread nD τ).loc main_arg1)) := hR
  have hW' : warr m c = val_main_v24 (F := Ideal) (m ((c : Thread nD τ).loc main_arg1)) := hW
  have hL : Host.reduceAdd (lossRows m c) (constant (F := Ideal) S_ .f32 0x00000000#32) reducesTo_S32x1x1_S_d0_1_2 h_S_
      = val_main_v27 (F := Ideal) (m ((c : Thread nD τ).loc main_arg0)) (m ((c : Thread nD τ).loc main_arg1)) := by
    funext i
    refine (total_from_zero (lossRows m c) i).trans ?_
    refine (congrArg (Ideal.ofBits .f32 0x00000000#32 + ·) (Finset.sum_congr rfl fun j _ => lossRows_at m c j)).trans ?_
    refine (total_loss (garr m c) (rarr m c) (warr m c) _).trans ?_
    rw [hG', hR', hW']
    exact (Cert.ReferenceIdeal.Bridge.loss_sum _ _ i).symm
  have hN : Host.reduceAdd (countRows m c) (constant (F := Ideal) S_ .f32 0x00000000#32) reducesTo_S32x1x1_S_d0_1_2 h_S_
      = val_main_v28 (F := Ideal) (m ((c : Thread nD τ).loc main_arg1)) := by
    funext i
    refine (total_from_zero (countRows m c) i).trans ?_
    refine (congrArg (Ideal.ofBits .f32 0x00000000#32 + ·) (Finset.sum_congr rfl fun j _ => countRows_at m c j)).trans ?_
    refine (total_count (warr m c) (val_main_v23 (F := Ideal) (m ((c : Thread nD τ).loc main_arg1)))
      (fun b k => by rw [hW']; exact Cert.ReferenceIdeal.Bridge.mask_column _ b k) _).trans ?_
    exact (Cert.ReferenceIdeal.Bridge.count_sum _ i).symm
  unfold quotient
  rw [hL, hN]
  unfold val_main_v31 val_main_v30 val_main_v29 val_main_cst_6 val_main_cst_7
  rfl

end Cert.Bridge

end
-- ==== Proof.lean ====
/-
  Masked smooth-L1 loss, normalised by the mask count: a kernel that accumulates row by row against one total.

  Both programs gather, for each batch row and anchor, a pair from a table at a clipped index, take the Huber loss of
  "gathered minus target" per channel, weight it by a 0/1 mask of the anchor, add everything up and divide by the
  larger of one and the number of unmasked anchors. The reference adds up all 32 × 262144 × 2 masked terms in one
  sweep. The kernel's grid has one point per batch row and half of the anchor axis: a point adds the channel-then-anchor
  sum of its half into a one-element accumulator (reset at the first half), the row's accumulator is written back
  after the second half, and the host adds up the 32 rows; the mask count goes the same way.

  On the extended reals these are two bracketings of one finite sum, and addition there is commutative and
  associative, so the two results agree for every input; nothing below uses that the inputs are finite. The ideal pass
  rewrote nothing, so the idealized kernel is the kernel's own text read exactly.

  The three frames: the two kernel programs run by the generated frame certificate; the reference is a straight line
  of host operations, run stretch by stretch.
-/
import proofs.«150206_j46858093200031_1_alg».proof.Defs
import proofs.«150206_j46858093200031_1_alg».proof.Proof.Gen.Kernel
import proofs.«150206_j46858093200031_1_alg».proof.Proof.Gen.Kernel.Skeleton
import proofs.«150206_j46858093200031_1_alg».proof.Proof.Gen.Kernel.Launch
import proofs.«150206_j46858093200031_1_alg».proof.Proof.Gen.Kernel.Points
import proofs.«150206_j46858093200031_1_alg».proof.Proof.Gen.Kernel.Frame
import proofs.«150206_j46858093200031_1_alg».proof.Proof.Gen.KernelIdeal
import proofs.«150206_j46858093200031_1_alg».proof.Proof.Gen.KernelIdeal.Skeleton
import proofs.«150206_j46858093200031_1_alg».proof.Proof.Gen.KernelIdeal.Launch
import proofs.«150206_j46858093200031_1_alg».proof.Proof.Gen.KernelIdeal.Points
import proofs.«150206_j46858093200031_1_alg».proof.Proof.Gen.KernelIdeal.Frame
import proofs.«150206_j46858093200031_1_alg».proof.Proof.Gen.ReferenceIdeal
import proofs.«150206_j46858093200031_1_alg».proof.Proof.Gen.Pre_finite_inputs
import proofs.«150206_j46858093200031_1_alg».proof.Proof.RefStages
import proofs.«150206_j46858093200031_1_alg».proof.Proof.Bridge
import Idealize.ShloMosaic.Adequacy
import Idealize.ShloMosaic.Init

noncomputable section

namespace Cert.Proof

open Idealize.ShloMosaic Idealize.SL.Sem

/-- The kernel as printed runs, and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does its exact reading. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs, stretch by stretch, and writes no argument. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Stages.run (F := Ideal) m ρ)

/-- From memories that agree on the two arguments both programs end with the same extended real: the kernel's quotient
    of its two row arrays is the reference's last stage of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Acc.quotient (Cert.KernelIdeal.Acc.lossRows m c) (Cert.KernelIdeal.Acc.countRows m c),
    Cert.KernelIdeal.Acc.run m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2]
  exact (Cert.Bridge.value_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
